-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S8x200x8 : Shape := ⟨3, ![8, 200, 8]⟩
abbrev S8x1x256 : Shape := ⟨3, ![8, 1, 256]⟩
abbrev S8x200x200 : Shape := ⟨3, ![8, 200, 200]⟩
abbrev S1x200x8 : Shape := ⟨3, ![1, 200, 8]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S1x1x256 : Shape := ⟨3, ![1, 1, 256]⟩
abbrev S1x200x200 : Shape := ⟨3, ![1, 200, 200]⟩
abbrev S128x256 : Shape := ⟨2, ![128, 256]⟩

abbrev nBuf : Space → Nat
  | .hbm => 22
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S128x1x256, .f32⟩
  | .hbm, ⟨20, _⟩ => ⟨S128x200x200, .f32⟩
  | .hbm, ⟨21, _⟩ => ⟨S128x256, .f32⟩
  | .local _ .vmem, ⟨0, _⟩ => ⟨S8x200x8, .f32⟩
  | .local _ .vmem, ⟨1, _⟩ => ⟨S8x200x8, .f32⟩
  | .local _ .vmem, ⟨2, _⟩ => ⟨S8x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S8x1x256, .f32⟩
  | .local _ .vmem, ⟨15, _⟩ => ⟨S8x1x256, .f32⟩
  | .local _ .vmem, ⟨16, _⟩ => ⟨S8x200x200, .f32⟩
  | .local _ .vmem, ⟨17, _⟩ => ⟨S8x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256_S1x256 : S256.ShapeCasts S1x256
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S8x200x8_S1x200x8_0_0_0 : ∀ a, (![0, 0, 0] : Fin 3 → Nat) a + S1x200x8.size a ≤ S8x200x8.size a
  h_S1x200x8 : 0 < S1x200x8.numel
  shapeCasts_S1x200x8_S200x8 : S1x200x8.ShapeCasts S200x8
  broadcasts_S1x256_S200x256 : S1x256.Broadcasts S200x256
  inb_S8x200x8_S1x200x8_1_0_0 : ∀ a, (![1, 0, 0] : Fin 3 → Nat) a + S1x200x8.size a ≤ S8x200x8.size a
  inb_S8x200x8_S1x200x8_2_0_0 : ∀ a, (![2, 0, 0] : Fin 3 → Nat) a + S1x200x8.size a ≤ S8x200x8.size a
  inb_S8x200x8_S1x200x8_3_0_0 : ∀ a, (![3, 0, 0] : Fin 3 → Nat) a + S1x200x8.size a ≤ S8x200x8.size a
  inb_S8x200x8_S1x200x8_4_0_0 : ∀ a, (![4, 0, 0] : Fin 3 → Nat) a + S1x200x8.size a ≤ S8x200x8.size a
  inb_S8x200x8_S1x200x8_5_0_0 : ∀ a, (![5, 0, 0] : Fin 3 → Nat) a + S1x200x8.size a ≤ S8x200x8.size a
  inb_S8x200x8_S1x200x8_6_0_0 : ∀ a, (![6, 0, 0] : Fin 3 → Nat) a + S1x200x8.size a ≤ S8x200x8.size a
  inb_S8x200x8_S1x200x8_7_0_0 : ∀ a, (![7, 0, 0] : Fin 3 → Nat) a + S1x200x8.size a ≤ S8x200x8.size a
  reduces_S200x200_S200 : S200x200.Reduces [1] S200
  shapeCasts_S200_S200x1 : S200.ShapeCasts S200x1
  broadcasts_S200x1_S200x200 : S200x1.Broadcasts S200x200
  slices_S512x256_o0_0_S256x256 : S512x256.Slices ![0, 0] S256x256
  slices_S512x256_o256_0_S256x256 : S512x256.Slices ![256, 0] S256x256
  reduces_S200x256_S256 : S200x256.Reduces [0] S256
  inb_S8x1x256_S1x1x256_0_0_0 : ∀ a, (![0, 0, 0] : Fin 3 → Nat) a + S1x1x256.size a ≤ S8x1x256.size a
  h_S1x1x256 : 0 < S1x1x256.numel
  shapeCasts_S1x1x256_S1x256 : S1x1x256.ShapeCasts S1x256
  shapeCasts_S1x256_S1x1x256 : S1x256.ShapeCasts S1x1x256
  inb_S8x200x200_S1x200x200_0_0_0 : ∀ a, (![0, 0, 0] : Fin 3 → Nat) a + S1x200x200.size a ≤ S8x200x200.size a
  h_S1x200x200 : 0 < S1x200x200.numel
  shapeCasts_S1x200x200_S200x200 : S1x200x200.ShapeCasts S200x200
  shapeCasts_S200x200_S1x200x200 : S200x200.ShapeCasts S1x200x200
  inb_S8x1x256_S1x1x256_1_0_0 : ∀ a, (![1, 0, 0] : Fin 3 → Nat) a + S1x1x256.size a ≤ S8x1x256.size a
  inb_S8x200x200_S1x200x200_1_0_0 : ∀ a, (![1, 0, 0] : Fin 3 → Nat) a + S1x200x200.size a ≤ S8x200x200.size a
  inb_S8x1x256_S1x1x256_2_0_0 : ∀ a, (![2, 0, 0] : Fin 3 → Nat) a + S1x1x256.size a ≤ S8x1x256.size a
  inb_S8x200x200_S1x200x200_2_0_0 : ∀ a, (![2, 0, 0] : Fin 3 → Nat) a + S1x200x200.size a ≤ S8x200x200.size a
  inb_S8x1x256_S1x1x256_3_0_0 : ∀ a, (![3, 0, 0] : Fin 3 → Nat) a + S1x1x256.size a ≤ S8x1x256.size a
  inb_S8x200x200_S1x200x200_3_0_0 : ∀ a, (![3, 0, 0] : Fin 3 → Nat) a + S1x200x200.size a ≤ S8x200x200.size a
  inb_S8x1x256_S1x1x256_4_0_0 : ∀ a, (![4, 0, 0] : Fin 3 → Nat) a + S1x1x256.size a ≤ S8x1x256.size a
  inb_S8x200x200_S1x200x200_4_0_0 : ∀ a, (![4, 0, 0] : Fin 3 → Nat) a + S1x200x200.size a ≤ S8x200x200.size a
  inb_S8x1x256_S1x1x256_5_0_0 : ∀ a, (![5, 0, 0] : Fin 3 → Nat) a + S1x1x256.size a ≤ S8x1x256.size a
  inb_S8x200x200_S1x200x200_5_0_0 : ∀ a, (![5, 0, 0] : Fin 3 → Nat) a + S1x200x200.size a ≤ S8x200x200.size a
  inb_S8x1x256_S1x1x256_6_0_0 : ∀ a, (![6, 0, 0] : Fin 3 → Nat) a + S1x1x256.size a ≤ S8x1x256.size a
  inb_S8x200x200_S1x200x200_6_0_0 : ∀ a, (![6, 0, 0] : Fin 3 → Nat) a + S1x200x200.size a ≤ S8x200x200.size a
  inb_S8x1x256_S1x1x256_7_0_0 : ∀ a, (![7, 0, 0] : Fin 3 → Nat) a + S1x1x256.size a ≤ S8x1x256.size a
  inb_S8x200x200_S1x200x200_7_0_0 : ∀ a, (![7, 0, 0] : Fin 3 → Nat) a + S1x200x200.size a ≤ S8x200x200.size a
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x8.size a ≤ S128x200x8.size a
  hwx0_0 : ∀ i : grid0.Coords, EltTy.bits .f32 = 32 ∨ (Rect.block (s := S128x200x8) S8x200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x1x256.size a ≤ S128x1x256.size a
  hwx0_13 : ∀ i : grid0.Coords, EltTy.bits .f32 = 32 ∨ (Rect.block (s := S128x1x256) S8x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x200x200.size a ≤ S128x200x200.size a
  hwx0_14 : ∀ i : grid0.Coords, EltTy.bits .f32 = 32 ∨ (Rect.block (s := S128x200x200) S8x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg0) S8x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S8x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S8x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.KJet.lean ====
/-
  One jet's chain of vector operations, stage by stage, over the kernel's own shapes, for any float instance: the embedding
  tanh (x·Wₑ + bₑ), the scaled logits, the numerically shifted exponentials, their row normalisation, one round of message
  passing with the 512-row weight split into its two 256-row halves, the first readout layer, and the summed second layer
  plus 200·b₂. The eight jets of a block all run this same chain on their own [1, 200, 8] slab.
-/
import proofs.«174277_g85813446574462_cont_9to1c4b_288_11_alg».proof.Proof.Gen.KernelIdeal

noncomputable section

namespace Cert.KernelIdeal.Jet

open Idealize.ShloMosaic Cert.KernelIdeal Cert.KernelIdeal.Facts₀ Cert.KernelIdeal.Facts

variable {F : FTy → Type} [FloatOps F]

/-- A bias row as the body re-casts it, [1, 256] to [1, 256]. -/
def biasK (v : Vec F S1x256 .f32) : FVec F S1x256 .f32 := shapeCast S1x256 v shapeCasts_S1x256_S1x256

/-- tanh (x·W + b) for a jet's slab x of [1, 200, 8]. -/
def embK (x : Vec F S1x200x8 .f32) (w : Vec F S8x256 .f32) (b : FVec F S1x256 .f32) : FVec F S200x256 .f32 :=
  tanh (addf (matmul dot_S200x8_S8x256_S200x256_1_0_0_1_n_n none (shapeCast S200x8 x shapeCasts_S1x200x8_S200x8) w (constant S200x256 .f32 0x00000000#32)) (broadcastTo S200x256 b broadcasts_S1x256_S200x256))

/-- (h·hᵀ)·2⁻⁴. -/
def logitK (h : FVec F S200x256 .f32) : FVec F S200x200 .f32 :=
  mulf (matmul dot_S200x256_S200x256_S200x200_1_1_0_0_n_n none h h (constant S200x200 .f32 0x00000000#32)) (broadcast S200x200 (Scalar.ofBits .f32 0x3D800000#32))

/-- exp (ℓ − rowmax ℓ). -/
def pexpK (l : FVec F S200x200 .f32) : FVec F S200x200 .f32 :=
  exp (subf l (broadcastTo S200x200 (shapeCast S200x1 (multiReduction .maximumf [1] S200 l 0xFF800000#32 reduces_S200x200_S200 (.inl rfl) rfl) shapeCasts_S200_S200x1) broadcasts_S200x1_S200x200))

/-- p / rowsum p. -/
def normK (p : FVec F S200x200 .f32) : FVec F S200x200 .f32 :=
  divf p (broadcastTo S200x200 (shapeCast S200x1 (multiReduction .add [1] S200 p 0x00000000#32 reduces_S200x200_S200 (.inl rfl) rfl) shapeCasts_S200_S200x1) broadcasts_S200x1_S200x200)

/-- The softmax attention of a state. -/
def attK (h : FVec F S200x256 .f32) : FVec F S200x200 .f32 := normK (pexpK (logitK h))

/-- One round: tanh (h·W_top + (a·h)·W_bot + b). -/
def updK (h : FVec F S200x256 .f32) (W : Vec F S512x256 .f32) (b : FVec F S1x256 .f32) : FVec F S200x256 .f32 :=
  tanh (addf (addf
    (matmul dot_S200x256_S256x256_S200x256_1_0_0_1_n_n none h (extractStridedSlice S256x256 ![0, 0] W slices_S512x256_o0_0_S256x256) (constant S200x256 .f32 0x00000000#32))
    (matmul dot_S200x256_S256x256_S200x256_1_0_0_1_n_n none
      (matmul dot_S200x200_S200x256_S200x256_1_0_0_1_n_n none (attK h) h (constant S200x256 .f32 0x00000000#32))
      (extractStridedSlice S256x256 ![256, 0] W slices_S512x256_o256_0_S256x256) (constant S200x256 .f32 0x00000000#32)))
    (broadcastTo S200x256 b broadcasts_S1x256_S200x256))

/-- The first readout layer tanh (h·W₁ + b₁). -/
def fc1K (h : FVec F S200x256 .f32) (W : Vec F S256x256 .f32) (b : FVec F S1x256 .f32) : FVec F S200x256 .f32 :=
  tanh (addf (matmul dot_S200x256_S256x256_S200x256_1_0_0_1_n_n none h W (constant S200x256 .f32 0x00000000#32)) (broadcastTo S200x256 b broadcasts_S1x256_S200x256))

/-- The second layer summed over the nodes, plus 200·b₂, as the [1, 1, 256] piece the body stores. -/
def sumK (r : FVec F S200x256 .f32) (W : Vec F S256x256 .f32) (b : FVec F S1x256 .f32) : FVec F S1x1x256 .f32 :=
  shapeCast S1x1x256 (addf
    (shapeCast S1x256 (multiReduction .add [0] S256 (matmul dot_S200x256_S256x256_S200x256_1_0_0_1_n_n none r W (constant S200x256 .f32 0x00000000#32)) 0x00000000#32 reduces_S200x256_S256 (.inl rfl) rfl) shapeCasts_S256_S1x256)
    (mulf (broadcast S1x256 (Scalar.ofBits .f32 0x43480000#32)) b)) shapeCasts_S1x256_S1x1x256

/-- The state after the embedding and two rounds. -/
def state2K (x : Vec F S1x200x8 .f32) (w1 : Vec F S8x256 .f32) (w2 : Vec F S1x256 .f32) (w3 : Vec F S512x256 .f32) (w4 : Vec F S1x256 .f32)
    (w5 : Vec F S512x256 .f32) (w6 : Vec F S1x256 .f32) : FVec F S200x256 .f32 :=
  updK (updK (embK x w1 (biasK w2)) w3 (biasK w4)) w5 (biasK w6)

/-- The jet's piece of the first output: the readout of the state after three rounds. -/
def jetOutK (x : Vec F S1x200x8 .f32) (w1 : Vec F S8x256 .f32) (w2 : Vec F S1x256 .f32) (w3 : Vec F S512x256 .f32) (w4 : Vec F S1x256 .f32)
    (w5 : Vec F S512x256 .f32) (w6 : Vec F S1x256 .f32) (w7 : Vec F S512x256 .f32) (w8 : Vec F S1x256 .f32)
    (w9 : Vec F S256x256 .f32) (w10 : Vec F S1x256 .f32) (w11 : Vec F S256x256 .f32) (w12 : Vec F S1x256 .f32) : FVec F S1x1x256 .f32 :=
  sumK (fc1K (updK (state2K x w1 w2 w3 w4 w5 w6) w7 (biasK w8)) w9 (biasK w10)) w11 (biasK w12)

/-- The jet's piece of the second output: the third round's attention, as the [1, 200, 200] piece the body stores. -/
def jetAttK (x : Vec F S1x200x8 .f32) (w1 : Vec F S8x256 .f32) (w2 : Vec F S1x256 .f32) (w3 : Vec F S512x256 .f32) (w4 : Vec F S1x256 .f32)
    (w5 : Vec F S512x256 .f32) (w6 : Vec F S1x256 .f32) : FVec F S1x200x200 .f32 :=
  shapeCast S1x200x200 (attK (state2K x w1 w2 w3 w4 w5 w6)) shapeCasts_S200x200_S1x200x200

end Cert.KernelIdeal.Jet

end
-- ==== Proof.KPay.lean ====
/-
  What the body leaves in each output window's buffer, as eight pieces, one per jet: jet j's slab of the jets block run
  through the one per-jet chain. The body's eight interleaved chains are the same chain applied to the eight slabs.
-/
import proofs.«174277_g85813446574462_cont_9to1c4b_288_11_alg».proof.Proof.Gen.KernelIdeal.Frame
import proofs.«174277_g85813446574462_cont_9to1c4b_288_11_alg».proof.Proof.KJet

noncomputable section

namespace Cert.KernelIdeal.Gen

open Idealize.ShloMosaic Cert.KernelIdeal

variable {F : FTy → Type} [FloatOps F]

set_option maxRecDepth 100000 in
set_option maxHeartbeats 4000000 in
/-- The first output's block: piece j is jet j's readout row. -/
theorem out0_13_eq (x0 : Vec F S8x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_13 x0 x1 x2 x3 x4 x5 x6 x7 x8 x9 x10 x11 x12 = View.canon [⟨r0_26, Jet.jetOutK (View.ld x0 r0_11) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
    ⟨r0_24, Jet.jetOutK (View.ld x0 r0_10) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
    ⟨r0_22, Jet.jetOutK (View.ld x0 r0_9) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
    ⟨r0_20, Jet.jetOutK (View.ld x0 r0_8) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
    ⟨r0_18, Jet.jetOutK (View.ld x0 r0_7) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
    ⟨r0_16, Jet.jetOutK (View.ld x0 r0_6) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
    ⟨r0_14, Jet.jetOutK (View.ld x0 r0_5) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
    ⟨r0_12, Jet.jetOutK (View.ld x0 r0_4) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩] := rfl

set_option maxRecDepth 100000 in
set_option maxHeartbeats 4000000 in
/-- The second output's block: piece j is jet j's third-round attention matrix. -/
theorem out0_14_eq (x0 : Vec F S8x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_14 x0 x1 x2 x3 x4 x5 x6 x7 x8 x9 x10 x11 x12 = View.canon [⟨r0_27, Jet.jetAttK (View.ld x0 r0_11) (View.ld x1 r0_0) (View.ld x2 r0_1) (View.ld x3 r0_2) (View.ld x4 r0_1) (View.ld x5 r0_2) (View.ld x6 r0_1)⟩,
    ⟨r0_25, Jet.jetAttK (View.ld x0 r0_10) (View.ld x1 r0_0) (View.ld x2 r0_1) (View.ld x3 r0_2) (View.ld x4 r0_1) (View.ld x5 r0_2) (View.ld x6 r0_1)⟩,
    ⟨r0_23, Jet.jetAttK (View.ld x0 r0_9) (View.ld x1 r0_0) (View.ld x2 r0_1) (View.ld x3 r0_2) (View.ld x4 r0_1) (View.ld x5 r0_2) (View.ld x6 r0_1)⟩,
    ⟨r0_21, Jet.jetAttK (View.ld x0 r0_8) (View.ld x1 r0_0) (View.ld x2 r0_1) (View.ld x3 r0_2) (View.ld x4 r0_1) (View.ld x5 r0_2) (View.ld x6 r0_1)⟩,
    ⟨r0_19, Jet.jetAttK (View.ld x0 r0_7) (View.ld x1 r0_0) (View.ld x2 r0_1) (View.ld x3 r0_2) (View.ld x4 r0_1) (View.ld x5 r0_2) (View.ld x6 r0_1)⟩,
    ⟨r0_17, Jet.jetAttK (View.ld x0 r0_6) (View.ld x1 r0_0) (View.ld x2 r0_1) (View.ld x3 r0_2) (View.ld x4 r0_1) (View.ld x5 r0_2) (View.ld x6 r0_1)⟩,
    ⟨r0_15, Jet.jetAttK (View.ld x0 r0_5) (View.ld x1 r0_0) (View.ld x2 r0_1) (View.ld x3 r0_2) (View.ld x4 r0_1) (View.ld x5 r0_2) (View.ld x6 r0_1)⟩,
    ⟨r0_13, Jet.jetAttK (View.ld x0 r0_4) (View.ld x1 r0_0) (View.ld x2 r0_1) (View.ld x3 r0_2) (View.ld x4 r0_1) (View.ld x5 r0_2) (View.ld x6 r0_1)⟩] := rfl

end Cert.KernelIdeal.Gen

end
-- ==== Proof.Spec.lean ====
/-
  The message-passing network both programs compute, written index by index on the extended reals.

  One jet is a matrix x of 200 nodes by 8 features. The embedding is h⁰ = tanh (x·Wₑ + bₑ). One round of message passing
  builds from h (200 × 256) the logits ℓ = (h·hᵀ)·2⁻⁴, the row-wise softmax a = exp (ℓ − rowmax ℓ) / rowsum (exp (ℓ − rowmax ℓ)),
  the messages a·h, and the new state tanh (h·W_top + (a·h)·W_bot + b), where W_top and W_bot are the upper and lower 256 rows
  of the 512 × 256 weight. After three rounds the readout is Σₙ (tanh (h³·W₁ + b₁)·W₂)ₙ + 200·b₂, and the second result is
  the attention matrix of the third round. Sums are finite sums of extended reals; the row maximum is a fold of max from the
  printed word for −∞; division, tanh and exp are the ideal instance's.
-/
import Idealize.ShloMosaic.PureOps.Ideal
import Idealize.ShloMosaic.Lib.ValueIdx

noncomputable section

open scoped BigOperators

namespace Cert.Mpnn

open Idealize.ShloMosaic Idealize.ShloMosaic.ValueIdx

/-- An r × c matrix of extended reals, by row and column. -/
abbrev Mat (r c : Nat) := Fin r → Fin c → EReal

/-- The attention scale, the word of 2⁻⁴ = 1/√256. -/
def scale : EReal := Ideal.ofBits .f32 0x3D800000#32
/-- The word the row maximum starts from (−∞). -/
def negInf : EReal := Ideal.ofBits .f32 0xFF800000#32
/-- The word of the node count 200 that multiplies the last bias. -/
def nodes : EReal := Ideal.ofBits .f32 0x43480000#32

/-- A dense layer with tanh: tanh (h·W + b). -/
def dense {k : Nat} (h : Mat 200 k) (W : Mat k 256) (b : Fin 256 → EReal) : Mat 200 256 :=
  fun n e => Ideal.tanh ((∑ d, h n d * W d e) + b e)

/-- The scaled logits (h·hᵀ)·2⁻⁴. -/
def logit (h : Mat 200 256) : Mat 200 200 := fun n m => (∑ d, h n d * h m d) * scale
/-- A row's maximum, folded from −∞. -/
def rowMax (l : Mat 200 200) : Fin 200 → EReal := fun n => (Finset.univ : Finset (Fin 200)).fold max negInf (l n)
/-- exp (ℓ − rowmax ℓ). -/
def pexp (l : Mat 200 200) : Mat 200 200 := fun n m => Ideal.exp (l n m - rowMax l n)
/-- A row's sum. -/
def rowSum (p : Mat 200 200) : Fin 200 → EReal := fun n => ∑ m, p n m
/-- The softmax attention of a state. -/
def att (h : Mat 200 256) : Mat 200 200 := fun n m => Ideal.div (pexp (logit h) n m) (rowSum (pexp (logit h)) n)
/-- The messages a·h. -/
def msg (h : Mat 200 256) : Mat 200 256 := fun n d => ∑ m, att h n m * h m d
/-- One round: tanh (h·W_top + (a·h)·W_bot + b). -/
def upd (h : Mat 200 256) (W : Mat 512 256) (b : Fin 256 → EReal) : Mat 200 256 :=
  fun n e => Ideal.tanh (((∑ d : Fin 256, h n d * W (Fin.castAdd 256 d) e) + ∑ d : Fin 256, msg h n d * W (Fin.natAdd 256 d) e) + b e)
/-- The readout: Σₙ (r·W₂)ₙ + 200·b₂. -/
def readout (r : Mat 200 256) (W : Mat 256 256) (b : Fin 256 → EReal) : Fin 256 → EReal :=
  fun e => (∑ n, ∑ d, r n d * W d e) + nodes * b e

/-- The network's weights, by row and column. -/
structure Params where
  We : Mat 8 256
  be : Fin 256 → EReal
  W0 : Mat 512 256
  b0 : Fin 256 → EReal
  W1 : Mat 512 256
  b1 : Fin 256 → EReal
  W2 : Mat 512 256
  b2 : Fin 256 → EReal
  Wr1 : Mat 256 256
  br1 : Fin 256 → EReal
  Wr2 : Mat 256 256
  br2 : Fin 256 → EReal

/-- The state after the embedding and two rounds. -/
def state2 (x : Mat 200 8) (P : Params) : Mat 200 256 := upd (upd (dense x P.We P.be) P.W0 P.b0) P.W1 P.b1
/-- A jet's first result: the readout of the state after three rounds. -/
def outSpec (x : Mat 200 8) (P : Params) : Fin 256 → EReal :=
  readout (dense (upd (state2 x P) P.W2 P.b2) P.Wr1 P.br1) P.Wr2 P.br2
/-- A jet's second result: the attention of the third round. -/
def attSpec (x : Mat 200 8) (P : Params) : Mat 200 200 := att (state2 x P)

/-- The weights read off the twelve weight arrays as the programs receive them (matrices of rank 2, biases of rank 1). -/
def paramsOf (a1 : (⟨2, ![8, 256]⟩ : Shape).Idx → EReal) (a2 : (⟨1, ![256]⟩ : Shape).Idx → EReal)
    (a3 : (⟨2, ![512, 256]⟩ : Shape).Idx → EReal) (a4 : (⟨1, ![256]⟩ : Shape).Idx → EReal)
    (a5 : (⟨2, ![512, 256]⟩ : Shape).Idx → EReal) (a6 : (⟨1, ![256]⟩ : Shape).Idx → EReal)
    (a7 : (⟨2, ![512, 256]⟩ : Shape).Idx → EReal) (a8 : (⟨1, ![256]⟩ : Shape).Idx → EReal)
    (a9 : (⟨2, ![256, 256]⟩ : Shape).Idx → EReal) (a10 : (⟨1, ![256]⟩ : Shape).Idx → EReal)
    (a11 : (⟨2, ![256, 256]⟩ : Shape).Idx → EReal) (a12 : (⟨1, ![256]⟩ : Shape).Idx → EReal) : Params where
  We := fun f d => a1 (ix2 f d)
  be := fun d => a2 (ix1 d)
  W0 := fun k e => a3 (ix2 k e)
  b0 := fun d => a4 (ix1 d)
  W1 := fun k e => a5 (ix2 k e)
  b1 := fun d => a6 (ix1 d)
  W2 := fun k e => a7 (ix2 k e)
  b2 := fun d => a8 (ix1 d)
  Wr1 := fun k e => a9 (ix2 k e)
  br1 := fun d => a10 (ix1 d)
  Wr2 := fun k e => a11 (ix2 k e)
  br2 := fun d => a12 (ix1 d)

/-- Jet b of the batch of jets, as a matrix. -/
def jetOf (a0 : (⟨3, ![128, 200, 8]⟩ : Shape).Idx → EReal) (b : Fin 128) : Mat 200 8 := fun n f => a0 (ix3 b n f)

/-- The first result array, [128, 256]: jet b's readout in row b. -/
def Gout (a0 : (⟨3, ![128, 200, 8]⟩ : Shape).Idx → EReal) (P : Params) : (⟨2, ![128, 256]⟩ : Shape).Idx → EReal :=
  fun i => outSpec (jetOf a0 (i 0)) P (i 1)
/-- The second result array, [128, 200, 200]: jet b's last attention matrix in slab b. -/
def Gatt (a0 : (⟨3, ![128, 200, 8]⟩ : Shape).Idx → EReal) (P : Params) : (⟨3, ![128, 200, 200]⟩ : Shape).Idx → EReal :=
  fun i => attSpec (jetOf a0 (i 0)) P (i 1) (i 2)

end Cert.Mpnn

end
-- ==== Proof.KRead.lean ====
/-
  One jet's chain of vector operations, read at an index at the ideal instance: every stage is the network's stage of the
  jet's matrix and the weights, entry by entry (a matrix product is the finite sum over its contracted axis, a row maximum the
  fold of max, a row sum the finite sum, the two half-weights the upper and lower 256 rows of the 512-row weight).
-/
import proofs.«174277_g85813446574462_cont_9to1c4b_288_11_alg».proof.Proof.KJet
import proofs.«174277_g85813446574462_cont_9to1c4b_288_11_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Jet

open Idealize.ShloMosaic Idealize.ShloMosaic.ValueIdx Cert.KernelIdeal Cert.KernelIdeal.Facts₀ Cert.KernelIdeal.Facts Cert.Mpnn

/-- The weights as one jet's chain receives them: the matrices whole, each bias as a [1, 256] row. -/
def paramsK (w1 : Vec Ideal S8x256 .f32) (w2 : Vec Ideal S1x256 .f32) (w3 : Vec Ideal S512x256 .f32) (w4 : Vec Ideal S1x256 .f32)
    (w5 : Vec Ideal S512x256 .f32) (w6 : Vec Ideal S1x256 .f32) (w7 : Vec Ideal S512x256 .f32) (w8 : Vec Ideal S1x256 .f32)
    (w9 : Vec Ideal S256x256 .f32) (w10 : Vec Ideal S1x256 .f32) (w11 : Vec Ideal S256x256 .f32) (w12 : Vec Ideal S1x256 .f32) : Params where
  We := fun f d => w1 (ix2 f d)
  be := fun d => w2 (ix2 0 d)
  W0 := fun k e => w3 (ix2 k e)
  b0 := fun d => w4 (ix2 0 d)
  W1 := fun k e => w5 (ix2 k e)
  b1 := fun d => w6 (ix2 0 d)
  W2 := fun k e => w7 (ix2 k e)
  b2 := fun d => w8 (ix2 0 d)
  Wr1 := fun k e => w9 (ix2 k e)
  br1 := fun d => w10 (ix2 0 d)
  Wr2 := fun k e => w11 (ix2 k e)
  br2 := fun d => w12 (ix2 0 d)

/-! ## A matrix product read at an entry -/

/-- The dimension numbers of rows by columns: an M × K matrix times a K × N matrix. -/
abbrev dotRC {M K N : Nat} (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The dimension numbers of rows by rows: an M × K matrix times the transpose of an N × K matrix. -/
abbrev dotRR {M K N : Nat} (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

/-- Rows by columns into the zero matrix, at (a, b): Σ_c A(a, c) · B(c, b). -/
theorem matmulRC_apply {M K N : Nat} (w : DotDims.WF ⟨2, ![M, K]⟩ ⟨2, ![K, N]⟩ ⟨2, ![M, N]⟩ [1] [0] [0] [1] [] [])
    (A : FVec Ideal ⟨2, ![M, K]⟩ .f32) (B : FVec Ideal ⟨2, ![K, N]⟩ .f32) (a : Fin M) (b : Fin N) :
    matmul (dotRC w) none A B (constant (F := Ideal) ⟨2, ![M, N]⟩ .f32 0x00000000#32) (ix2 a b)
      = ∑ c : Fin K, A (ix2 a c) * B (ix2 c b) := by
  show FloatOps.matmul (dotRC w) none A B (constant (F := Ideal) ⟨2, ![M, N]⟩ .f32 0x00000000#32) (ix2 a b) = _
  rw [Ideal.matmul_constant_zero_apply, ← Equiv.sum_comp (contrEquiv1 (dotRC w) K rfl rfl).symm]
  refine Finset.sum_congr rfl fun c _ => ?_
  have c2 := contrEquiv1_symm_val (dotRC w) K rfl rfl c
  have l2 : (dotRC w).lhsIdx (ix2 a b) ((contrEquiv1 (dotRC w) K rfl rfl).symm c) = ix2 a c := by
    funext ax; apply Fin.ext
    match ax with
    | ⟨0, _⟩ => simp [DotDims.lhsIdx]; rfl
    | ⟨1, _⟩ => simp [DotDims.lhsIdx]; exact c2
  have r2 : (dotRC w).rhsIdx (ix2 a b) ((contrEquiv1 (dotRC w) K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows by rows into the zero matrix, at (a, b): Σ_c A(a, c) · B(b, c). -/
theorem matmulRR_apply {M K N : Nat} (w : DotDims.WF ⟨2, ![M, K]⟩ ⟨2, ![N, K]⟩ ⟨2, ![M, N]⟩ [1] [1] [0] [0] [] [])
    (A : FVec Ideal ⟨2, ![M, K]⟩ .f32) (B : FVec Ideal ⟨2, ![N, K]⟩ .f32) (a : Fin M) (b : Fin N) :
    matmul (dotRR w) none A B (constant (F := Ideal) ⟨2, ![M, N]⟩ .f32 0x00000000#32) (ix2 a b)
      = ∑ c : Fin K, A (ix2 a c) * B (ix2 b c) := by
  show FloatOps.matmul (dotRR w) none A B (constant (F := Ideal) ⟨2, ![M, N]⟩ .f32 0x00000000#32) (ix2 a b) = _
  rw [Ideal.matmul_constant_zero_apply, ← Equiv.sum_comp (contrEquiv1 (dotRR w) K rfl rfl).symm]
  refine Finset.sum_congr rfl fun c _ => ?_
  have c2 := contrEquiv1_symm_val (dotRR w) K rfl rfl c
  have l2 : (dotRR w).lhsIdx (ix2 a b) ((contrEquiv1 (dotRR w) K rfl rfl).symm c) = ix2 a c := by
    funext ax; apply Fin.ext
    match ax with
    | ⟨0, _⟩ => simp [DotDims.lhsIdx]; rfl
    | ⟨1, _⟩ => simp [DotDims.lhsIdx]; exact c2
  have r2 : (dotRR w).rhsIdx (ix2 a b) ((contrEquiv1 (dotRR w) K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## The column forms of a cast and a broadcast, and the inserted index of a reduction -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row n, the index with column m inserted is (n, m). -/
theorem lift_row {a b : ℕ} (h : (⟨2, ![a, b]⟩ : Shape).Reduces [1] ⟨1, ![a]⟩) (n : Fin a) (m : Fin b) :
    h.lift (ix1 n) m = ix2 n m := by
  funext c; apply Fin.ext
  match c with
  | ⟨0, _⟩ => rfl
  | ⟨1, _⟩ => rfl

/-- Over column e, the index with row n inserted is (n, e). -/
theorem lift_col {a b : ℕ} (h : (⟨2, ![a, b]⟩ : Shape).Reduces [0] ⟨1, ![b]⟩) (e : Fin b) (n : Fin a) :
    h.lift (ix1 e) n = ix2 n e := by
  funext c; apply Fin.ext
  match c with
  | ⟨0, _⟩ => rfl
  | ⟨1, _⟩ => rfl

/-- A row's maximum from the word of −∞, kept as a column and spread over the row: the fold of max over the row. -/
theorem rowMaxK_apply (l : FVec Ideal S200x200 .f32) (n m : Fin 200) :
    broadcastTo S200x200 (shapeCast S200x1 (multiReduction (F := Ideal) .maximumf [1] S200 l 0xFF800000#32 reduces_S200x200_S200 (.inl rfl) rfl)
      shapeCasts_S200_S200x1) broadcasts_S200x1_S200x200 (ix2 n m) = rowMax (fun n m => l (ix2 n m)) n := by
  rw [broadcastTo_a1_ab_apply, shapeCast_a_a1_apply]
  refine (Ideal.multiReduction_maximumf_single l 0xFF800000#32 reduces_S200x200_S200 (.inl rfl) rfl (ix1 n)).trans ?_
  unfold rowMax negInf
  have hf : (l ∘ reduces_S200x200_S200.lift (ix1 n)) = fun m => l (ix2 n m) :=
    funext fun m => congrArg l (lift_row reduces_S200x200_S200 n m)
  rw [hf]
  rfl

/-- A row's sum, kept as a column and spread over the row. -/
theorem rowSumK_apply (p : FVec Ideal S200x200 .f32) (n m : Fin 200) :
    broadcastTo S200x200 (shapeCast S200x1 (multiReduction (F := Ideal) .add [1] S200 p 0x00000000#32 reduces_S200x200_S200 (.inl rfl) rfl)
      shapeCasts_S200_S200x1) broadcasts_S200x1_S200x200 (ix2 n m) = rowSum (fun n m => p (ix2 n m)) n := by
  rw [broadcastTo_a1_ab_apply, shapeCast_a_a1_apply]
  refine (Ideal.multiReduction_add_single p 0x00000000#32 reduces_S200x200_S200 (.inl rfl) rfl (ix1 n)).trans ?_
  unfold rowSum
  exact Finset.sum_congr rfl fun m _ => congrArg p (lift_row reduces_S200x200_S200 n m)

/-! ## The stages at an entry -/

/-- A bias row re-cast to its own shape is the row. -/
theorem biasK_eq (v : Vec Ideal S1x256 .f32) : biasK v = v := shapeCast_self v _

/-- The embedding at (n, d) is the dense layer of the jet's matrix. -/
theorem embK_apply (x : Vec Ideal S1x200x8 .f32) (w : Vec Ideal S8x256 .f32) (b : FVec Ideal S1x256 .f32) (n : Fin 200) (d : Fin 256) :
    embK x w b (ix2 n d) = dense (fun n f => x (ix3 0 n f)) (fun f d => w (ix2 f d)) (fun d => b (ix2 0 d)) n d := by
  unfold embK dense
  show Ideal.tanh (matmul dot_S200x8_S8x256_S200x256_1_0_0_1_n_n none (shapeCast S200x8 x shapeCasts_S1x200x8_S200x8) w
      (constant (F := Ideal) S200x256 .f32 0x00000000#32) (ix2 n d) + broadcastTo S200x256 b broadcasts_S1x256_S200x256 (ix2 n d)) = _
  refine congrArg Ideal.tanh (congrArg₂ (· + ·) ?_ (broadcastTo_1b_ab_apply b _ n d))
  refine (matmulRC_apply dot_S200x8_S8x256_S200x256_1_0_0_1_n_n_wf _ w n d).trans ?_
  exact Finset.sum_congr rfl fun c _ => congrArg (· * w (ix2 c d)) (shapeCast_1ab_ab_apply x _ n c)

/-- The logits at (n, m). -/
theorem logitK_apply (h : FVec Ideal S200x256 .f32) (n m : Fin 200) :
    logitK h (ix2 n m) = logit (fun n d => h (ix2 n d)) n m := by
  unfold logitK logit
  show matmul dot_S200x256_S200x256_S200x200_1_1_0_0_n_n none h h (constant (F := Ideal) S200x200 .f32 0x00000000#32) (ix2 n m) * scale = _
  exact congrArg (· * scale) (matmulRR_apply dot_S200x256_S200x256_S200x200_1_1_0_0_n_n_wf h h n m)

/-- The shifted exponentials at (n, m). -/
theorem pexpK_apply (l : FVec Ideal S200x200 .f32) (n m : Fin 200) :
    pexpK l (ix2 n m) = pexp (fun n m => l (ix2 n m)) n m := by
  unfold pexpK pexp
  show Ideal.exp (l (ix2 n m) - _) = _
  exact congrArg (fun t => Ideal.exp (l (ix2 n m) - t)) (rowMaxK_apply l n m)

/-- The row normalisation at (n, m). -/
theorem normK_apply (p : FVec Ideal S200x200 .f32) (n m : Fin 200) :
    normK p (ix2 n m) = Ideal.div (p (ix2 n m)) (rowSum (fun n m => p (ix2 n m)) n) := by
  unfold normK
  show Ideal.div (p (ix2 n m)) _ = _
  exact congrArg (Ideal.div (p (ix2 n m))) (rowSumK_apply p n m)

/-- The attention at (n, m). -/
theorem attK_apply (h : FVec Ideal S200x256 .f32) (n m : Fin 200) :
    attK h (ix2 n m) = att (fun n d => h (ix2 n d)) n m := by
  have hl : (fun n m => logitK h (ix2 n m)) = logit (fun n d => h (ix2 n d)) :=
    funext fun n => funext fun m => logitK_apply h n m
  have hp : (fun n m => pexpK (logitK h) (ix2 n m)) = pexp (logit (fun n d => h (ix2 n d))) :=
    funext fun n => funext fun m => (pexpK_apply (logitK h) n m).trans (by rw [hl])
  unfold attK att
  rw [normK_apply, hp]
  exact congrArg (fun t => Ideal.div t _) (congrFun (congrFun hp n) m)

/-- The messages at (n, d): the attention times the state. -/
theorem msgK_apply (h : FVec Ideal S200x256 .f32) (n : Fin 200) (d : Fin 256) :
    matmul dot_S200x200_S200x256_S200x256_1_0_0_1_n_n none (attK h) h (constant (F := Ideal) S200x256 .f32 0x00000000#32) (ix2 n d)
      = msg (fun n d => h (ix2 n d)) n d := by
  refine (matmulRC_apply dot_S200x200_S200x256_S200x256_1_0_0_1_n_n_wf (attK h) h n d).trans ?_
  unfold msg
  exact Finset.sum_congr rfl fun m _ => congrArg (· * h (ix2 m d)) (attK_apply h n m)

/-- One round at (n, e): the upper 256 rows of the weight meet the state, the lower 256 rows the messages. -/
theorem updK_apply (h : FVec Ideal S200x256 .f32) (W : Vec Ideal S512x256 .f32) (b : FVec Ideal S1x256 .f32) (n : Fin 200) (e : Fin 256) :
    updK h W b (ix2 n e) = upd (fun n d => h (ix2 n d)) (fun k e => W (ix2 k e)) (fun d => b (ix2 0 d)) n e := by
  unfold updK upd
  show Ideal.tanh ((matmul dot_S200x256_S256x256_S200x256_1_0_0_1_n_n none h (extractStridedSlice S256x256 ![0, 0] W slices_S512x256_o0_0_S256x256)
        (constant (F := Ideal) S200x256 .f32 0x00000000#32) (ix2 n e)
      + matmul dot_S200x256_S256x256_S200x256_1_0_0_1_n_n none
          (matmul dot_S200x200_S200x256_S200x256_1_0_0_1_n_n none (attK h) h (constant (F := Ideal) S200x256 .f32 0x00000000#32))
          (extractStridedSlice S256x256 ![256, 0] W slices_S512x256_o256_0_S256x256) (constant (F := Ideal) S200x256 .f32 0x00000000#32) (ix2 n e))
      + broadcastTo S200x256 b broadcasts_S1x256_S200x256 (ix2 n e)) = _
  refine congrArg Ideal.tanh (congrArg₂ (· + ·) (congrArg₂ (· + ·) ?_ ?_) (broadcastTo_1b_ab_apply b _ n e))
  · refine (matmulRC_apply dot_S200x256_S256x256_S200x256_1_0_0_1_n_n_wf h _ n e).trans ?_
    exact Finset.sum_congr rfl fun c _ => congrArg (h (ix2 n c) * ·)
      (slice2_axis0_apply 0 W slices_S512x256_o0_0_S256x256 c e (Fin.castAdd 256 c) (Nat.zero_add _).symm)
  · refine (matmulRC_apply dot_S200x256_S256x256_S200x256_1_0_0_1_n_n_wf _ _ n e).trans ?_
    exact Finset.sum_congr rfl fun c _ => congrArg₂ (· * ·) (msgK_apply h n c)
      (slice2_axis0_apply 256 W slices_S512x256_o256_0_S256x256 c e (Fin.natAdd 256 c) rfl)

/-- The first readout layer at (n, e). -/
theorem fc1K_apply (h : FVec Ideal S200x256 .f32) (W : Vec Ideal S256x256 .f32) (b : FVec Ideal S1x256 .f32) (n : Fin 200) (e : Fin 256) :
    fc1K h W b (ix2 n e) = dense (fun n d => h (ix2 n d)) (fun k e => W (ix2 k e)) (fun d => b (ix2 0 d)) n e := by
  unfold fc1K dense
  show Ideal.tanh (matmul dot_S200x256_S256x256_S200x256_1_0_0_1_n_n none h W (constant (F := Ideal) S200x256 .f32 0x00000000#32) (ix2 n e)
      + broadcastTo S200x256 b broadcasts_S1x256_S200x256 (ix2 n e)) = _
  exact congrArg Ideal.tanh (congrArg₂ (· + ·) (matmulRC_apply dot_S200x256_S256x256_S200x256_1_0_0_1_n_n_wf h W n e)
    (broadcastTo_1b_ab_apply b _ n e))

/-- The summed second layer at column e. -/
theorem sumK_apply (r : FVec Ideal S200x256 .f32) (W : Vec Ideal S256x256 .f32) (b : FVec Ideal S1x256 .f32) (e : Fin 256) :
    sumK r W b (ix3 0 0 e) = readout (fun n d => r (ix2 n d)) (fun k e => W (ix2 k e)) (fun d => b (ix2 0 d)) e := by
  unfold sumK readout
  rw [shapeCast_ab_1ab_apply]
  show shapeCast S1x256 (multiReduction (F := Ideal) .add [0] S256
        (matmul dot_S200x256_S256x256_S200x256_1_0_0_1_n_n none r W (constant (F := Ideal) S200x256 .f32 0x00000000#32)) 0x00000000#32
        reduces_S200x256_S256 (.inl rfl) rfl) shapeCasts_S256_S1x256 (ix2 0 e) + nodes * b (ix2 0 e) = _
  refine congrArg (· + nodes * b (ix2 0 e)) ?_
  rw [shapeCast_a_1a_apply]
  refine (Ideal.multiReduction_add_single _ 0x00000000#32 reduces_S200x256_S256 (.inl rfl) rfl (ix1 e)).trans ?_
  refine Finset.sum_congr rfl fun n _ => ?_
  rw [lift_col reduces_S200x256_S256 e n]
  exact matmulRC_apply dot_S200x256_S256x256_S200x256_1_0_0_1_n_n_wf r W n e

/-! ## The chain -/

/-- The embedding as a matrix. -/
theorem embK_eq (x : Vec Ideal S1x200x8 .f32) (w : Vec Ideal S8x256 .f32) (b : FVec Ideal S1x256 .f32) :
    (fun n d => embK x w b (ix2 n d)) = dense (fun n f => x (ix3 0 n f)) (fun f d => w (ix2 f d)) (fun d => b (ix2 0 d)) :=
  funext fun n => funext fun d => embK_apply x w b n d

/-- One round as a matrix. -/
theorem updK_eq (h : FVec Ideal S200x256 .f32) (W : Vec Ideal S512x256 .f32) (b : FVec Ideal S1x256 .f32) :
    (fun n e => updK h W b (ix2 n e)) = upd (fun n d => h (ix2 n d)) (fun k e => W (ix2 k e)) (fun d => b (ix2 0 d)) :=
  funext fun n => funext fun e => updK_apply h W b n e

/-- The first readout layer as a matrix. -/
theorem fc1K_eq (h : FVec Ideal S200x256 .f32) (W : Vec Ideal S256x256 .f32) (b : FVec Ideal S1x256 .f32) :
    (fun n e => fc1K h W b (ix2 n e)) = dense (fun n d => h (ix2 n d)) (fun k e => W (ix2 k e)) (fun d => b (ix2 0 d)) :=
  funext fun n => funext fun e => fc1K_apply h W b n e

/-- The state after the embedding and two rounds, as a matrix, is the network's. -/
theorem state2K_eq (x : Vec Ideal S1x200x8 .f32) (w1 : Vec Ideal S8x256 .f32) (w2 : Vec Ideal S1x256 .f32) (w3 : Vec Ideal S512x256 .f32) (w4 : Vec Ideal S1x256 .f32)
    (w5 : Vec Ideal S512x256 .f32) (w6 : Vec Ideal S1x256 .f32) (w7 : Vec Ideal S512x256 .f32) (w8 : Vec Ideal S1x256 .f32)
    (w9 : Vec Ideal S256x256 .f32) (w10 : Vec Ideal S1x256 .f32) (w11 : Vec Ideal S256x256 .f32) (w12 : Vec Ideal S1x256 .f32) :
    (fun n d => state2K x w1 w2 w3 w4 w5 w6 (ix2 n d))
      = state2 (fun n f => x (ix3 0 n f)) (paramsK w1 w2 w3 w4 w5 w6 w7 w8 w9 w10 w11 w12) := by
  unfold state2K state2
  rw [biasK_eq, biasK_eq, biasK_eq, updK_eq, updK_eq, embK_eq]
  rfl

/-- The jet's first piece at column e is the network's readout of the jet's matrix. -/
theorem jetOutK_apply (x : Vec Ideal S1x200x8 .f32) (w1 : Vec Ideal S8x256 .f32) (w2 : Vec Ideal S1x256 .f32) (w3 : Vec Ideal S512x256 .f32) (w4 : Vec Ideal S1x256 .f32)
    (w5 : Vec Ideal S512x256 .f32) (w6 : Vec Ideal S1x256 .f32) (w7 : Vec Ideal S512x256 .f32) (w8 : Vec Ideal S1x256 .f32)
    (w9 : Vec Ideal S256x256 .f32) (w10 : Vec Ideal S1x256 .f32) (w11 : Vec Ideal S256x256 .f32) (w12 : Vec Ideal S1x256 .f32) (e : Fin 256) :
    jetOutK x w1 w2 w3 w4 w5 w6 w7 w8 w9 w10 w11 w12 (ix3 0 0 e)
      = outSpec (fun n f => x (ix3 0 n f)) (paramsK w1 w2 w3 w4 w5 w6 w7 w8 w9 w10 w11 w12) e := by
  unfold jetOutK outSpec
  rw [biasK_eq, biasK_eq, biasK_eq, sumK_apply, fc1K_eq, updK_eq, state2K_eq x w1 w2 w3 w4 w5 w6 w7 w8 w9 w10 w11 w12]
  rfl

/-- The jet's second piece at (n, m) is the network's third-round attention of the jet's matrix. -/
theorem jetAttK_apply (x : Vec Ideal S1x200x8 .f32) (w1 : Vec Ideal S8x256 .f32) (w2 : Vec Ideal S1x256 .f32) (w3 : Vec Ideal S512x256 .f32) (w4 : Vec Ideal S1x256 .f32)
    (w5 : Vec Ideal S512x256 .f32) (w6 : Vec Ideal S1x256 .f32) (w7 : Vec Ideal S512x256 .f32) (w8 : Vec Ideal S1x256 .f32)
    (w9 : Vec Ideal S256x256 .f32) (w10 : Vec Ideal S1x256 .f32) (w11 : Vec Ideal S256x256 .f32) (w12 : Vec Ideal S1x256 .f32) (n m : Fin 200) :
    jetAttK x w1 w2 w3 w4 w5 w6 (ix3 0 n m)
      = attSpec (fun n f => x (ix3 0 n f)) (paramsK w1 w2 w3 w4 w5 w6 w7 w8 w9 w10 w11 w12) n m := by
  unfold jetAttK attSpec
  rw [shapeCast_ab_1ab_apply, attK_apply, state2K_eq x w1 w2 w3 w4 w5 w6 w7 w8 w9 w10 w11 w12]

end Cert.KernelIdeal.Jet

end
-- ==== Proof.KBlocks.lean ====
/-
  The blocks the region's windows bring to one grid point, read off the argument arrays: point t's jets block is jets
  8t … 8t + 7, and where every window's block sits on the grid.
-/
import proofs.«174277_g85813446574462_cont_9to1c4b_288_11_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps over the sixteen grid points: the jets window and the two output windows move along the
    batch axis with the point; every other window stays at block zero. -/
theorem idx_facts : ∀ t : Fin cfg0.N, (win0_0.index t (0 : Fin 3) = t.val ∧ win0_0.index t (1 : Fin 3) = 0 ∧ win0_0.index t (2 : Fin 3) = 0)
    ∧ (win0_13.index t (0 : Fin 3) = t.val ∧ win0_13.index t (1 : Fin 3) = 0 ∧ win0_13.index t (2 : Fin 3) = 0)
    ∧ (win0_14.index t (0 : Fin 3) = t.val ∧ win0_14.index t (1 : Fin 3) = 0 ∧ win0_14.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Point t's jets block holds jets 8t … 8t + 7 of the batch. -/
theorem jets_blk (c : Dev nD) (t : Fin cfg0.N) (y : S8x200x8.Idx) (k : S128x200x8.Idx)
    (h0 : (k 0).val = 8 * t.val + (y 0).val) (h1 : (k 1).val = (y 1).val) (h2 : (k 2).val = (y 2).val) :
    (iblk m c 0 t : Vec F S8x200x8 .f32) y = (m ((c : Thread nD τ).loc main_arg0) : S128x200x8.Idx → Elt F .f32) k := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 8 + 1 * (y 0).val = (k 0).val; rw [e0, h0]; omega
  | ⟨1, _⟩ => show win0_0.index t (1 : Fin 3) * 200 + 1 * (y 1).val = (k 1).val; rw [e1, h1]; omega
  | ⟨2, _⟩ => show win0_0.index t (2 : Fin 3) * 8 + 1 * (y 2).val = (k 2).val; rw [e2, h2]; omega

end Cert.KernelIdeal.Blocks

end
-- ==== Proof.KWindows.lean ====
/- Every weight window's block is its whole array at every grid point, and every bias window's block is the bias re-laid as one row. -/
import proofs.«174277_g85813446574462_cont_9to1c4b_288_11_alg».proof.Proof.KBlocks

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Window 1's block at every point is its whole weight array. -/
theorem w1_blk (c : Dev nD) (t : Fin cfg0.N) :
    (iblk m c 1 t : Vec F S8x256 .f32) = (m ((c : Thread nD τ).loc main_arg1) : S8x256.Idx → Elt F .f32) := by
  have hi := idx_facts t
  obtain ⟨e0, e1⟩ := hi.2.2.2.1
  funext y
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 8 + 1 * (y 0).val = (y 0).val; rw [e0]; omega
  | ⟨1, _⟩ => show win0_1.index t (1 : Fin 2) * 256 + 1 * (y 1).val = (y 1).val; rw [e1]; omega

/-- Window 3's block at every point is its whole weight array. -/
theorem w3_blk (c : Dev nD) (t : Fin cfg0.N) :
    (iblk m c 3 t : Vec F S512x256 .f32) = (m ((c : Thread nD τ).loc main_arg3) : S512x256.Idx → Elt F .f32) := by
  have hi := idx_facts t
  obtain ⟨e0, e1⟩ := hi.2.2.2.2.2.1
  funext y
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- Window 5's block at every point is its whole weight array. -/
theorem w5_blk (c : Dev nD) (t : Fin cfg0.N) :
    (iblk m c 5 t : Vec F S512x256 .f32) = (m ((c : Thread nD τ).loc main_arg5) : S512x256.Idx → Elt F .f32) := by
  have hi := idx_facts t
  obtain ⟨e0, e1⟩ := hi.2.2.2.2.2.2.2.1
  funext y
  unfold iblk
  rw [View.read_apply]
  show V m c main_arg5 _ = m (c.tc.loc main_arg5) _
  rw [V_main_arg5]
  congr 1
  funext a
  apply Fin.ext
  match a with
  | ⟨0, _⟩ => show win0_5.index t (0 : Fin 2) * 512 + 1 * (y 0).val = (y 0).val; rw [e0]; omega
  | ⟨1, _⟩ => show win0_5.index t (1 : Fin 2) * 256 + 1 * (y 1).val = (y 1).val; rw [e1]; omega

/-- Window 7's block at every point is its whole weight array. -/
theorem w7_blk (c : Dev nD) (t : Fin cfg0.N) :
    (iblk m c 7 t : Vec F S512x256 .f32) = (m ((c : Thread nD τ).loc main_arg7) : S512x256.Idx → Elt F .f32) := by
  have hi := idx_facts t
  obtain ⟨e0, e1⟩ := hi.2.2.2.2.2.2.2.2.2.1
  funext y
  unfold iblk
  rw [View.read_apply]
  show V m c main_arg7 _ = m (c.tc.loc main_arg7) _
  rw [V_main_arg7]
  congr 1
  funext a
  apply Fin.ext
  match a with
  | ⟨0, _⟩ => show win0_7.index t (0 : Fin 2) * 512 + 1 * (y 0).val = (y 0).val; rw [e0]; omega
  | ⟨1, _⟩ => show win0_7.index t (1 : Fin 2) * 256 + 1 * (y 1).val = (y 1).val; rw [e1]; omega

/-- Window 9's block at every point is its whole weight array. -/
theorem w9_blk (c : Dev nD) (t : Fin cfg0.N) :
    (iblk m c 9 t : Vec F S256x256 .f32) = (m ((c : Thread nD τ).loc main_arg9) : S256x256.Idx → Elt F .f32) := by
  have hi := idx_facts t
  obtain ⟨e0, e1⟩ := hi.2.2.2.2.2.2.2.2.2.2.2.1
  funext y
  unfold iblk
  rw [View.read_apply]
  show V m c main_arg9 _ = m (c.tc.loc main_arg9) _
  rw [V_main_arg9]
  congr 1
  funext a
  apply Fin.ext
  match a with
  | ⟨0, _⟩ => show win0_9.index t (0 : Fin 2) * 256 + 1 * (y 0).val = (y 0).val; rw [e0]; omega
  | ⟨1, _⟩ => show win0_9.index t (1 : Fin 2) * 256 + 1 * (y 1).val = (y 1).val; rw [e1]; omega

/-- Window 11's block at every point is its whole weight array. -/
theorem w11_blk (c : Dev nD) (t : Fin cfg0.N) :
    (iblk m c 11 t : Vec F S256x256 .f32) = (m ((c : Thread nD τ).loc main_arg11) : S256x256.Idx → Elt F .f32) := by
  have hi := idx_facts t
  obtain ⟨e0, e1⟩ := hi.2.2.2.2.2.2.2.2.2.2.2.2.2.1
  funext y
  unfold iblk
  rw [View.read_apply]
  show V m c main_arg11 _ = m (c.tc.loc main_arg11) _
  rw [V_main_arg11]
  congr 1
  funext a
  apply Fin.ext
  match a with
  | ⟨0, _⟩ => show win0_11.index t (0 : Fin 2) * 256 + 1 * (y 0).val = (y 0).val; rw [e0]; omega
  | ⟨1, _⟩ => show win0_11.index t (1 : Fin 2) * 256 + 1 * (y 1).val = (y 1).val; rw [e1]; omega

/-- The region finds bias 2 re-laid as one row. -/
theorem V_main_v0 (c : Dev nD) :
    (V m c main_v0 : S1x256.Idx → Elt F .f32) = shapeCast S1x256 (m ((c : Thread nD τ).loc main_arg2) : S256.Idx → Elt F .f32) Facts₀.shapeCasts_S256_S1x256 := by
  show StableHlo.after hostOps0 (fun b => m (c, b)) (Proc.devRef .tc main_v0) = _
  after_results
  rfl

/-- Window 2's block at every point is that row: entry d of the bias. -/
theorem b2_blk (c : Dev nD) (t : Fin cfg0.N) (d : Fin 256) :
    (iblk m c 2 t : Vec F S1x256 .f32) (ix2 0 d) = (m ((c : Thread nD τ).loc main_arg2) : S256.Idx → Elt F .f32) (ix1 d) := by
  have hi := idx_facts t
  obtain ⟨e0, e1⟩ := hi.2.2.2.2.1
  unfold iblk
  rw [View.read_apply]
  show V m c main_v0 _ = _
  rw [V_main_v0]
  refine (shapeCast_addUnit_apply (n := 1) ![256] _ _ _).trans ?_
  congr 1
  funext a
  apply Fin.ext
  match a with
  | ⟨0, _⟩ => show win0_2.index t (1 : Fin 2) * 256 + 1 * d.val = d.val; rw [e1]; omega

/-- The region finds bias 4 re-laid as one row. -/
theorem V_main_v1 (c : Dev nD) :
    (V m c main_v1 : S1x256.Idx → Elt F .f32) = shapeCast S1x256 (m ((c : Thread nD τ).loc main_arg4) : S256.Idx → Elt F .f32) Facts₀.shapeCasts_S256_S1x256 := by
  show StableHlo.after hostOps0 (fun b => m (c, b)) (Proc.devRef .tc main_v1) = _
  after_results
  rfl

/-- Window 4's block at every point is that row: entry d of the bias. -/
theorem b4_blk (c : Dev nD) (t : Fin cfg0.N) (d : Fin 256) :
    (iblk m c 4 t : Vec F S1x256 .f32) (ix2 0 d) = (m ((c : Thread nD τ).loc main_arg4) : S256.Idx → Elt F .f32) (ix1 d) := by
  have hi := idx_facts t
  obtain ⟨e0, e1⟩ := hi.2.2.2.2.2.2.1
  unfold iblk
  rw [View.read_apply]
  show V m c main_v1 _ = _
  rw [V_main_v1]
  refine (shapeCast_addUnit_apply (n := 1) ![256] _ _ _).trans ?_
  congr 1
  funext a
  apply Fin.ext
  match a with
  | ⟨0, _⟩ => show win0_4.index t (1 : Fin 2) * 256 + 1 * d.val = d.val; rw [e1]; omega

/-- The region finds bias 6 re-laid as one row. -/
theorem V_main_v2 (c : Dev nD) :
    (V m c main_v2 : S1x256.Idx → Elt F .f32) = shapeCast S1x256 (m ((c : Thread nD τ).loc main_arg6) : S256.Idx → Elt F .f32) Facts₀.shapeCasts_S256_S1x256 := by
  show StableHlo.after hostOps0 (fun b => m (c, b)) (Proc.devRef .tc main_v2) = _
  after_results
  rfl

/-- Window 6's block at every point is that row: entry d of the bias. -/
theorem b6_blk (c : Dev nD) (t : Fin cfg0.N) (d : Fin 256) :
    (iblk m c 6 t : Vec F S1x256 .f32) (ix2 0 d) = (m ((c : Thread nD τ).loc main_arg6) : S256.Idx → Elt F .f32) (ix1 d) := by
  have hi := idx_facts t
  obtain ⟨e0, e1⟩ := hi.2.2.2.2.2.2.2.2.1
  unfold iblk
  rw [View.read_apply]
  show V m c main_v2 _ = _
  rw [V_main_v2]
  refine (shapeCast_addUnit_apply (n := 1) ![256] _ _ _).trans ?_
  congr 1
  funext a
  apply Fin.ext
  match a with
  | ⟨0, _⟩ => show win0_6.index t (1 : Fin 2) * 256 + 1 * d.val = d.val; rw [e1]; omega

/-- The region finds bias 8 re-laid as one row. -/
theorem V_main_v3 (c : Dev nD) :
    (V m c main_v3 : S1x256.Idx → Elt F .f32) = shapeCast S1x256 (m ((c : Thread nD τ).loc main_arg8) : S256.Idx → Elt F .f32) Facts₀.shapeCasts_S256_S1x256 := by
  show StableHlo.after hostOps0 (fun b => m (c, b)) (Proc.devRef .tc main_v3) = _
  after_results
  rfl

/-- Window 8's block at every point is that row: entry d of the bias. -/
theorem b8_blk (c : Dev nD) (t : Fin cfg0.N) (d : Fin 256) :
    (iblk m c 8 t : Vec F S1x256 .f32) (ix2 0 d) = (m ((c : Thread nD τ).loc main_arg8) : S256.Idx → Elt F .f32) (ix1 d) := by
  have hi := idx_facts t
  obtain ⟨e0, e1⟩ := hi.2.2.2.2.2.2.2.2.2.2.1
  unfold iblk
  rw [View.read_apply]
  show V m c main_v3 _ = _
  rw [V_main_v3]
  refine (shapeCast_addUnit_apply (n := 1) ![256] _ _ _).trans ?_
  congr 1
  funext a
  apply Fin.ext
  match a with
  | ⟨0, _⟩ => show win0_8.index t (1 : Fin 2) * 256 + 1 * d.val = d.val; rw [e1]; omega

/-- The region finds bias 10 re-laid as one row. -/
theorem V_main_v4 (c : Dev nD) :
    (V m c main_v4 : S1x256.Idx → Elt F .f32) = shapeCast S1x256 (m ((c : Thread nD τ).loc main_arg10) : S256.Idx → Elt F .f32) Facts₀.shapeCasts_S256_S1x256 := by
  show StableHlo.after hostOps0 (fun b => m (c, b)) (Proc.devRef .tc main_v4) = _
  after_results
  rfl

/-- Window 10's block at every point is that row: entry d of the bias. -/
theorem b10_blk (c : Dev nD) (t : Fin cfg0.N) (d : Fin 256) :
    (iblk m c 10 t : Vec F S1x256 .f32) (ix2 0 d) = (m ((c : Thread nD τ).loc main_arg10) : S256.Idx → Elt F .f32) (ix1 d) := by
  have hi := idx_facts t
  obtain ⟨e0, e1⟩ := hi.2.2.2.2.2.2.2.2.2.2.2.2.1
  unfold iblk
  rw [View.read_apply]
  show V m c main_v4 _ = _
  rw [V_main_v4]
  refine (shapeCast_addUnit_apply (n := 1) ![256] _ _ _).trans ?_
  congr 1
  funext a
  apply Fin.ext
  match a with
  | ⟨0, _⟩ => show win0_10.index t (1 : Fin 2) * 256 + 1 * d.val = d.val; rw [e1]; omega

/-- The region finds bias 12 re-laid as one row. -/
theorem V_main_v5 (c : Dev nD) :
    (V m c main_v5 : S1x256.Idx → Elt F .f32) = shapeCast S1x256 (m ((c : Thread nD τ).loc main_arg12) : S256.Idx → Elt F .f32) Facts₀.shapeCasts_S256_S1x256 := by
  show StableHlo.after hostOps0 (fun b => m (c, b)) (Proc.devRef .tc main_v5) = _
  after_results
  rfl

/-- Window 12's block at every point is that row: entry d of the bias. -/
theorem b12_blk (c : Dev nD) (t : Fin cfg0.N) (d : Fin 256) :
    (iblk m c 12 t : Vec F S1x256 .f32) (ix2 0 d) = (m ((c : Thread nD τ).loc main_arg12) : S256.Idx → Elt F .f32) (ix1 d) := by
  have hi := idx_facts t
  obtain ⟨e0, e1⟩ := hi.2.2.2.2.2.2.2.2.2.2.2.2.2.2
  unfold iblk
  rw [View.read_apply]
  show V m c main_v5 _ = _
  rw [V_main_v5]
  refine (shapeCast_addUnit_apply (n := 1) ![256] _ _ _).trans ?_
  congr 1
  funext a
  apply Fin.ext
  match a with
  | ⟨0, _⟩ => show win0_12.index t (1 : Fin 2) * 256 + 1 * d.val = d.val; rw [e1]; omega

end Cert.KernelIdeal.Blocks

end
-- ==== Proof.KRun.lean ====
/-
  The kernel's run, read: point t of the grid writes back, for each of its eight jets, the network's readout row and
  third-round attention matrix of that jet; the sixteen points' blocks tile the two output arrays; the host's last line
  re-lays the [128, 1, 256] readouts as [128, 256]. So the two results are the network's, jet by jet.
-/
import proofs.«174277_g85813446574462_cont_9to1c4b_288_11_alg».proof.Proof.Gen.KernelIdeal.Frame
import proofs.«174277_g85813446574462_cont_9to1c4b_288_11_alg».proof.Proof.KPay
import proofs.«174277_g85813446574462_cont_9to1c4b_288_11_alg».proof.Proof.KRead
import proofs.«174277_g85813446574462_cont_9to1c4b_288_11_alg».proof.Proof.KWindows
import proofs.«174277_g85813446574462_cont_9to1c4b_288_11_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Jet Cert.KernelIdeal.Blocks Cert.Mpnn

variable (m : (ℓ : Loc nD τ sig) → Buf (Elt Ideal) ℓ) (ρ : Dev nD → PrngReg)

/-- The weights as launched on core c. -/
abbrev wts (c : Dev nD) : Params := paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- The jets as launched on core c. -/
abbrev jets (c : Dev nD) : S128x200x8.Idx → EReal := m ((c.tc : Thread nD τ).loc main_arg0)

theorem hz2 : (![0, 0] : Fin 2 → Nat) = fun _ => 0 := funext fun a => by fin_cases a <;> rfl

/-- At every point the jet chain receives exactly the launched weights. -/
theorem params_blk (c : Dev nD) (t : Fin cfg0.N) :
    paramsK (View.ld (iblk m c 1 t) r0_0) (View.ld (iblk m c 2 t) r0_1) (View.ld (iblk m c 3 t) r0_2) (View.ld (iblk m c 4 t) r0_1) (View.ld (iblk m c 5 t) r0_2) (View.ld (iblk m c 6 t) r0_1) (View.ld (iblk m c 7 t) r0_2) (View.ld (iblk m c 8 t) r0_1) (View.ld (iblk m c 9 t) r0_3) (View.ld (iblk m c 10 t) r0_1) (View.ld (iblk m c 11 t) r0_3) (View.ld (iblk m c 12 t) r0_1) = wts m c := by
  simp only [View.ld_unit_zero (S := S8x256) hz2, View.ld_unit_zero (S := S1x256) hz2, View.ld_unit_zero (S := S512x256) hz2, View.ld_unit_zero (S := S256x256) hz2]
  unfold paramsK wts paramsOf
  congr 1
  · funext f d; exact congrFun (w1_blk m c t) (ix2 f d)
  · funext d; exact b2_blk m c t d
  · funext f d; exact congrFun (w3_blk m c t) (ix2 f d)
  · funext d; exact b4_blk m c t d
  · funext f d; exact congrFun (w5_blk m c t) (ix2 f d)
  · funext d; exact b6_blk m c t d
  · funext f d; exact congrFun (w7_blk m c t) (ix2 f d)
  · funext d; exact b8_blk m c t d
  · funext f d; exact congrFun (w9_blk m c t) (ix2 f d)
  · funext d; exact b10_blk m c t d
  · funext f d; exact congrFun (w11_blk m c t) (ix2 f d)
  · funext d; exact b12_blk m c t d

/-- Slab j of point t's jets block is jet 8t + j of the batch. -/
theorem slab_eq (c : Dev nD) (t : Fin cfg0.N) (j : Nat) (hj : j < 8)
    (inb : ∀ a, (![j, 0, 0] : Fin 3 → Nat) a + S1x200x8.size a ≤ S8x200x8.size a) (b : Fin 128) (hb : b.val = 8 * t.val + j) :
    (fun (n : Fin 200) (f : Fin 8) => View.ld (iblk m c 0 t : Vec Ideal S8x200x8 .f32) (Rect.unit (s := S8x200x8) ![j, 0, 0] S1x200x8.size inb) (ix3 0 n f))
      = jetOf (jets m c) b := by
  funext n f
  refine jets_blk m c t _ (ix3 b n f) ?_ ?_ ?_
  · show b.val = 8 * t.val + ((![j, 0, 0] : Fin 3 → Nat) 0 + 1 * 0); rw [hb]; rfl
  · show n.val = (![j, 0, 0] : Fin 3 → Nat) 1 + 1 * n.val; simp
  · show f.val = (![j, 0, 0] : Fin 3 → Nat) 2 + 1 * f.val; simp

/-- The first output's block at point t as ONE function of the block index: row j holds jet 8t + j's readout. -/
def blkOut (c : Dev nD) (t : Fin cfg0.N) : S8x1x256.Idx → EReal :=
  fun y => outSpec (jetOf (jets m c) ⟨8 * t.val + (y 0).val, by
    have h1 : (y 0).val < 8 := (y 0).isLt; have h2 := t.isLt; have h3 : cfg0.N = 16 := N_0; omega⟩) (wts m c) (y 2)

/-- The second output's block at point t: slab j holds jet 8t + j's third-round attention. -/
def blkAtt (c : Dev nD) (t : Fin cfg0.N) : S8x200x200.Idx → EReal :=
  fun y => attSpec (jetOf (jets m c) ⟨8 * t.val + (y 0).val, by
    have h1 : (y 0).val < 8 := (y 0).isLt; have h2 := t.isLt; have h3 : cfg0.N = 16 := N_0; omega⟩) (wts m c) (y 1) (y 2)

theorem outSpec_congr (a : S128x200x8.Idx → EReal) (P : Params) {b b' : Fin 128} {e e' : Fin 256}
    (hb : b.val = b'.val) (he : e.val = e'.val) : outSpec (jetOf a b) P e = outSpec (jetOf a b') P e' := by
  obtain rfl := Fin.ext hb; obtain rfl := Fin.ext he; rfl

theorem attSpec_congr (a : S128x200x8.Idx → EReal) (P : Params) {b b' : Fin 128} {n n' m' m'' : Fin 200}
    (hb : b.val = b'.val) (hn : n.val = n'.val) (hm : m'.val = m''.val) :
    attSpec (jetOf a b) P n m' = attSpec (jetOf a b') P n' m'' := by
  obtain rfl := Fin.ext hb; obtain rfl := Fin.ext hn; obtain rfl := Fin.ext hm; rfl

/-- Jet j's stored readout piece is row j of the block function. -/
theorem piece_out (c : Dev nD) (t : Fin cfg0.N) (j : Nat) (hj : j < 8)
    (inbJ : ∀ a, (![j, 0, 0] : Fin 3 → Nat) a + S1x200x8.size a ≤ S8x200x8.size a)
    (inbO : ∀ a, (![j, 0, 0] : Fin 3 → Nat) a + S1x1x256.size a ≤ S8x1x256.size a) (x : S1x1x256.Idx) :
    jetOutK (View.ld (iblk m c 0 t : Vec Ideal S8x200x8 .f32) (Rect.unit (s := S8x200x8) ![j, 0, 0] S1x200x8.size inbJ)) (View.ld (iblk m c 1 t) r0_0) (View.ld (iblk m c 2 t) r0_1) (View.ld (iblk m c 3 t) r0_2) (View.ld (iblk m c 4 t) r0_1) (View.ld (iblk m c 5 t) r0_2) (View.ld (iblk m c 6 t) r0_1) (View.ld (iblk m c 7 t) r0_2) (View.ld (iblk m c 8 t) r0_1) (View.ld (iblk m c 9 t) r0_3) (View.ld (iblk m c 10 t) r0_1) (View.ld (iblk m c 11 t) r0_3) (View.ld (iblk m c 12 t) r0_1) x
      = blkOut m c t ((Rect.unit (s := S8x1x256) ![j, 0, 0] S1x1x256.size inbO).emb x) := by
  obtain ⟨e, rfl⟩ : ∃ e : Fin 256, x = ix3 0 0 e := by
    have h0 : (x 0).val = 0 := by have h : (x 0).val < 1 := (x 0).isLt; omega
    have h1 : (x 1).val = 0 := by have h : (x 1).val < 1 := (x 1).isLt; omega
    refine ⟨x 2, funext fun a => ?_⟩
    match a with
    | ⟨0, _⟩ => exact Fin.ext h0
    | ⟨1, _⟩ => exact Fin.ext h1
    | ⟨2, _⟩ => rfl
  have hb : 8 * t.val + j < 128 := by have h2 := t.isLt; have h3 : cfg0.N = 16 := N_0; omega
  rw [jetOutK_apply, params_blk, slab_eq m c t j hj inbJ ⟨8 * t.val + j, hb⟩ rfl]
  unfold blkOut
  refine outSpec_congr _ _ ?_ ?_
  · show 8 * t.val + j = 8 * t.val + ((![j, 0, 0] : Fin 3 → Nat) 0 + 1 * 0); simp
  · show e.val = (![j, 0, 0] : Fin 3 → Nat) 2 + 1 * e.val; simp

/-- Jet j's stored attention piece is slab j of the block function. -/
theorem piece_att (c : Dev nD) (t : Fin cfg0.N) (j : Nat) (hj : j < 8)
    (inbJ : ∀ a, (![j, 0, 0] : Fin 3 → Nat) a + S1x200x8.size a ≤ S8x200x8.size a)
    (inbO : ∀ a, (![j, 0, 0] : Fin 3 → Nat) a + S1x200x200.size a ≤ S8x200x200.size a) (x : S1x200x200.Idx) :
    jetAttK (View.ld (iblk m c 0 t : Vec Ideal S8x200x8 .f32) (Rect.unit (s := S8x200x8) ![j, 0, 0] S1x200x8.size inbJ)) (View.ld (iblk m c 1 t) r0_0) (View.ld (iblk m c 2 t) r0_1) (View.ld (iblk m c 3 t) r0_2) (View.ld (iblk m c 4 t) r0_1) (View.ld (iblk m c 5 t) r0_2) (View.ld (iblk m c 6 t) r0_1) x
      = blkAtt m c t ((Rect.unit (s := S8x200x200) ![j, 0, 0] S1x200x200.size inbO).emb x) := by
  obtain ⟨n, k, rfl⟩ : ∃ n k : Fin 200, x = ix3 0 n k := by
    have h0 : (x 0).val = 0 := by have h : (x 0).val < 1 := (x 0).isLt; omega
    refine ⟨x 1, x 2, funext fun a => ?_⟩
    match a with
    | ⟨0, _⟩ => exact Fin.ext h0
    | ⟨1, _⟩ => rfl
    | ⟨2, _⟩ => rfl
  have hb : 8 * t.val + j < 128 := by have h2 := t.isLt; have h3 : cfg0.N = 16 := N_0; omega
  rw [jetAttK_apply (w7 := View.ld (iblk m c 7 t) r0_2) (w8 := View.ld (iblk m c 8 t) r0_1) (w9 := View.ld (iblk m c 9 t) r0_3) (w10 := View.ld (iblk m c 10 t) r0_1) (w11 := View.ld (iblk m c 11 t) r0_3) (w12 := View.ld (iblk m c 12 t) r0_1),
    params_blk, slab_eq m c t j hj inbJ ⟨8 * t.val + j, hb⟩ rfl]
  unfold blkAtt
  refine attSpec_congr _ _ ?_ ?_ ?_
  · show 8 * t.val + j = 8 * t.val + ((![j, 0, 0] : Fin 3 → Nat) 0 + 1 * 0); simp
  · show n.val = (![j, 0, 0] : Fin 3 → Nat) 1 + 1 * n.val; simp
  · show k.val = (![j, 0, 0] : Fin 3 → Nat) 2 + 1 * k.val; simp

/-- What the body leaves in the first output's buffer at point t is the block function. -/
theorem out13_blk (c : Dev nD) (t : Fin cfg0.N) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = blkOut m c t := by
  rw [out0_13_eq]
  funext y
  refine View.canon_apply_of_pieces (Val := Elt Ideal) (blkOut m c t) _ ?_ y (cover0_13 _ _ _ _ _ _ _ _ y)
  intro p hp
  simp only [List.mem_cons, List.not_mem_nil, or_false] at hp
  rcases hp with rfl | rfl | rfl | rfl | rfl | rfl | rfl | rfl <;> (intro x; exact piece_out m c t _ (by decide) (by decide) (by decide) x)

/-- What the body leaves in the second output's buffer at point t is the block function. -/
theorem out14_blk (c : Dev nD) (t : Fin cfg0.N) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = blkAtt m c t := by
  rw [out0_14_eq]
  funext y
  refine View.canon_apply_of_pieces (Val := Elt Ideal) (blkAtt m c t) _ ?_ y (cover0_14 _ _ _ _ _ _ _ _ y)
  intro p hp
  simp only [List.mem_cons, List.not_mem_nil, or_false] at hp
  rcases hp with rfl | rfl | rfl | rfl | rfl | rfl | rfl | rfl <;> (intro x; exact piece_att m c t _ (by decide) (by decide) (by decide) x)

/-- The first output array the region leaves, [128, 1, 256]: jet b's readout in row b. -/
abbrev arrOut (c : Dev nD) : S128x1x256.Idx → EReal := fun i => outSpec (jetOf (jets m c) (i 0)) (wts m c) (i 2)

/-- Point t writes back block t of the first output array. -/
theorem flushed13 (c : Dev nD) (t : Fin cfg0.N) :
    (dats m 0 c).flushed 13 t = ((cfg0.win 13).blk t).view.read (Elt Ideal) (arrOut m c) := by
  show (cfg0.win 13).cut (grid0.coords t) ((dats m 0 c).after 13 t) = _
  rw [after0_13, out13_blk]
  obtain ⟨-, ⟨e0, e1, e2⟩, -⟩ := idx_facts t
  funext y
  show blkOut m c t y = arrOut m c (((cfg0.win 13).blk t).view.emb y)
  unfold blkOut
  refine outSpec_congr _ _ ?_ ?_
  · show 8 * t.val + (y 0).val = win0_13.index t (0 : Fin 3) * 8 + 1 * (y 0).val; rw [e0]; omega
  · show (y 2).val = win0_13.index t (2 : Fin 3) * 256 + 1 * (y 2).val; rw [e2]; omega

/-- Point t writes back block t of the second output array. -/
theorem flushed14 (c : Dev nD) (t : Fin cfg0.N) :
    (dats m 0 c).flushed 14 t = ((cfg0.win 14).blk t).view.read (Elt Ideal) (Gatt (jets m c) (wts m c)) := by
  show (cfg0.win 14).cut (grid0.coords t) ((dats m 0 c).after 14 t) = _
  rw [after0_14, out14_blk]
  obtain ⟨-, -, ⟨e0, e1, e2⟩, -⟩ := idx_facts t
  funext y
  show blkAtt m c t y = Gatt (jets m c) (wts m c) (((cfg0.win 14).blk t).view.emb y)
  unfold blkAtt Gatt
  refine attSpec_congr _ _ ?_ ?_ ?_
  · show 8 * t.val + (y 0).val = win0_14.index t (0 : Fin 3) * 8 + 1 * (y 0).val; rw [e0]; omega
  · show (y 1).val = win0_14.index t (1 : Fin 3) * 200 + 1 * (y 1).val; rw [e1]; omega
  · show (y 2).val = win0_14.index t (2 : Fin 3) * 200 + 1 * (y 2).val; rw [e2]; omega

/-- Every index of the first output array lies in the block of the point that owns its jet, point b / 8. -/
theorem cover13 (c : Dev nD) (i : S128x1x256.Idx) :
    ∃ t : Fin cfg0.N, (cfg0.win 13).flush t = true ∧ i ∈ ((cfg0.win 13).blk t).view.set := by
  have hi0 : (i 0).val < 128 := (i 0).isLt
  have hi1 : (i 1).val < 1 := (i 1).isLt
  have hi2 : (i 2).val < 256 := (i 2).isLt
  have hN : cfg0.N = 16 := N_0
  obtain ⟨t, ht⟩ : ∃ t : Fin cfg0.N, t.val = (i 0).val / 8 := ⟨⟨(i 0).val / 8, by omega⟩, rfl⟩
  obtain ⟨-, ⟨e0, e1, e2⟩, -⟩ := idx_facts t
  refine ⟨t, flush0_13 t, ?_⟩
  show i ∈ ((View.whole main_v6_0).slice (win0_13.rect t)).set
  rw [View.set_slice_whole, Rect.mem_set_unit]
  intro a
  match a with
  | ⟨0, _⟩ => show win0_13.index t (0 : Fin 3) * 8 ≤ (i 0).val ∧ (i 0).val < win0_13.index t (0 : Fin 3) * 8 + 8; rw [e0, ht]; omega
  | ⟨1, _⟩ => show win0_13.index t (1 : Fin 3) * 1 ≤ (i 1).val ∧ (i 1).val < win0_13.index t (1 : Fin 3) * 1 + 1; rw [e1]; omega
  | ⟨2, _⟩ => show win0_13.index t (2 : Fin 3) * 256 ≤ (i 2).val ∧ (i 2).val < win0_13.index t (2 : Fin 3) * 256 + 256; rw [e2]; omega

/-- The same for the second output array. -/
theorem cover14 (c : Dev nD) (i : S128x200x200.Idx) :
    ∃ t : Fin cfg0.N, (cfg0.win 14).flush t = true ∧ i ∈ ((cfg0.win 14).blk t).view.set := by
  have hi0 : (i 0).val < 128 := (i 0).isLt
  have hi1 : (i 1).val < 200 := (i 1).isLt
  have hi2 : (i 2).val < 200 := (i 2).isLt
  have hN : cfg0.N = 16 := N_0
  obtain ⟨t, ht⟩ : ∃ t : Fin cfg0.N, t.val = (i 0).val / 8 := ⟨⟨(i 0).val / 8, by omega⟩, rfl⟩
  obtain ⟨-, -, ⟨e0, e1, e2⟩, -⟩ := idx_facts t
  refine ⟨t, flush0_14 t, ?_⟩
  show i ∈ ((View.whole main_v6_1).slice (win0_14.rect t)).set
  rw [View.set_slice_whole, Rect.mem_set_unit]
  intro a
  match a with
  | ⟨0, _⟩ => show win0_14.index t (0 : Fin 3) * 8 ≤ (i 0).val ∧ (i 0).val < win0_14.index t (0 : Fin 3) * 8 + 8; rw [e0, ht]; omega
  | ⟨1, _⟩ => show win0_14.index t (1 : Fin 3) * 200 ≤ (i 1).val ∧ (i 1).val < win0_14.index t (1 : Fin 3) * 200 + 200; rw [e1]; omega
  | ⟨2, _⟩ => show win0_14.index t (2 : Fin 3) * 200 ≤ (i 2).val ∧ (i 2).val < win0_14.index t (2 : Fin 3) * 200 + 200; rw [e2]; omega

/-- So the first output array ends at the network's readouts, row by row, -/
theorem final13 (c : Dev nD) : (dats m 0 c).arrAt 13 cfg0.N = arrOut m c :=
  (dats m 0 c).arrAt_eq_of_cover 13 (arrOut m c) (fun t _ => flushed13 m c t) (cover13 c)

/-- and the second at the network's attention matrices, slab by slab. -/
theorem final14 (c : Dev nD) : (dats m 0 c).arrAt 14 cfg0.N = Gatt (jets m c) (wts m c) :=
  (dats m 0 c).arrAt_eq_of_cover 14 (Gatt (jets m c) (wts m c)) (fun t _ => flushed14 m c t) (cover14 c)

/-- The host's last line re-lays the [128, 1, 256] readouts as [128, 256]: the first result. -/
theorem tail_v7 (c : Dev nD) :
    Pipeline.afterTail₀ cfgs (dats m) 0 (V0 m) [hostOps1] c main_v7 = Gout (jets m c) (wts m c) := by
  unfold Pipeline.afterTail₀
  show StableHlo.after hostOps1 _ (Proc.devRef .tc main_v7) = _
  after_results
  rw [Pipeline.withArrays_arr spec0 launch0.win.arr_inj c _ _ 13, final13]
  funext i
  obtain ⟨b, e, rfl⟩ : ∃ (b : Fin 128) (e : Fin 256), i = ix2 b e := ⟨i 0, i 1, eq_ix2 i⟩
  refine (shapeCast_apply (arrOut m c) _ (ix2 b e) (ix3 b 0 e) ?_).trans rfl
  rw [Shape.rowMajor_val_three, Shape.rowMajor_val_two]
  show (b.val * 1 + 0) * 256 + e.val = b.val * 256 + e.val
  omega

/-- The kernel's run, read: the two results at the network's, the arguments unchanged. -/
theorem run : θ_run defs (onTc (τ := τ) (main (F := Ideal))) ⟨m, fun _ => 0, ρ⟩ fun r => ∀ c : Dev nD,
      r.2.mem ((c.tc : Thread nD τ).loc main_v7) = Gout (jets m c) (wts m c)
      ∧ r.2.mem ((c.tc : Thread nD τ).loc main_v6_1) = Gatt (jets m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).2 main_v7 (Pipeline.mem_restRefs_of main_v7 (by decide) (by decide))).trans (tail_v7 m c),
      ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩)
    (run_main m ρ)

end Cert.KernelIdeal.KRun

end
-- ==== Proof.RStages.lean ====
/-
  The reference's host operations grouped into stages, as whole-array functions of their operands, for any float instance:
  the embedding, the scaled logits, the shifted exponentials, their row normalisation, one round of message passing over the
  concatenated state and messages, the first readout layer, and the second layer with its bias summed over the nodes.
-/
import proofs.«174277_g85813446574462_cont_9to1c4b_288_11_alg».proof.Proof.Gen.ReferenceIdeal

noncomputable section

namespace Cert.ReferenceIdeal.Ref

open Idealize.ShloMosaic Cert.ReferenceIdeal Cert.ReferenceIdeal.Facts₀ Cert.ReferenceIdeal.Facts

section Stages
variable {F : FTy → Type} [FloatOps F]

/-- tanh (x·Wₑ + bₑ), all jets at once. -/
def embR (a0 : FVec F S128x200x8 .f32) (a1 : FVec F S8x256 .f32) (a2 : FVec F S256 .f32) : FVec F S128x200x256 .f32 :=
  Host.tanh (addf (Host.dotGeneral dot_S128x200x8_S8x256_S128x200x256_2_0_01_1_n_n none a0 a1) (broadcastInDim S128x200x256 ![0, 1, 2] bcast_S1x1x256_S128x200x256_0_1_2 (broadcastInDim S1x1x256 ![2] bcast_S256_S1x1x256_2 a2)))

/-- (h·hᵀ)·2⁻⁴ within each jet. -/
def logitR (h : FVec F S128x200x256 .f32) : FVec F S128x200x200 .f32 :=
  mulf (Host.dotGeneral dot_S128x200x256_S128x200x256_S128x200x200_2_2_1_1_0_0 none h h) (broadcastInDim S128x200x200 ![] bcast_S_S128x200x200 (constant S_ .f32 0x3D800000#32))

/-- exp (ℓ − rowmax ℓ). -/
def pexpR (l : FVec F S128x200x200 .f32) : FVec F S128x200x200 .f32 :=
  Host.exp (subf l (broadcastInDim S128x200x200 ![0, 1, 2] bcast_S128x200x1_S128x200x200_0_1_2 (broadcastInDim S128x200x1 ![0, 1] bcast_S128x200_S128x200x1_0_1 (maximumf (broadcastInDim S128x200 ![] bcast_S_S128x200 (constant S_ .f32 0xFF800000#32)) (Host.reduce FloatOps.maximumf l (constant S_ .f32 0xFF800000#32) reducesTo_S128x200x200_S128x200_d2 h_S_)))))

/-- p / rowsum p. -/
def normR (p : FVec F S128x200x200 .f32) : FVec F S128x200x200 .f32 :=
  Host.divf p (broadcastInDim S128x200x200 ![0, 1, 2] bcast_S128x200x1_S128x200x200_0_1_2 (broadcastInDim S128x200x1 ![0, 1] bcast_S128x200_S128x200x1_0_1 (Host.reduceAdd p (constant S_ .f32 0x00000000#32) reducesTo_S128x200x200_S128x200_d2 h_S_)))

/-- One round: tanh ([h, a·h]·W + b). -/
def updR (h : FVec F S128x200x256 .f32) (W : FVec F S512x256 .f32) (b : FVec F S256 .f32) : FVec F S128x200x256 .f32 :=
  Host.tanh (addf (Host.dotGeneral dot_S128x200x512_S512x256_S128x200x256_2_0_01_1_n_n none (concatenate S128x200x512 2 [⟨S128x200x256, h⟩, ⟨S128x200x256, (Host.dotGeneral dot_S128x200x200_S128x200x256_S128x200x256_2_1_1_2_0_0 none (normR (pexpR (logitR h))) h)⟩] concatenates_S128x200x256_S128x200x256_S128x200x512_d2) W) (broadcastInDim S128x200x256 ![0, 1, 2] bcast_S1x1x256_S128x200x256_0_1_2 (broadcastInDim S1x1x256 ![2] bcast_S256_S1x1x256_2 b)))

/-- The first readout layer tanh (h·W₁ + b₁). -/
def fc1R (h : FVec F S128x200x256 .f32) (W : FVec F S256x256 .f32) (b : FVec F S256 .f32) : FVec F S128x200x256 .f32 :=
  Host.tanh (addf (Host.dotGeneral dot_S128x200x256_S256x256_S128x200x256_2_0_01_1_n_n none h W) (broadcastInDim S128x200x256 ![0, 1, 2] bcast_S1x1x256_S128x200x256_0_1_2 (broadcastInDim S1x1x256 ![2] bcast_S256_S1x1x256_2 b)))

/-- The second layer with its bias, summed over the nodes. -/
def sumR (r : FVec F S128x200x256 .f32) (W : FVec F S256x256 .f32) (b : FVec F S256 .f32) : FVec F S128x256 .f32 :=
  Host.reduceAdd (addf (Host.dotGeneral dot_S128x200x256_S256x256_S128x200x256_2_0_01_1_n_n none r W) (broadcastInDim S128x200x256 ![0, 1, 2] bcast_S1x1x256_S128x200x256_0_1_2 (broadcastInDim S1x1x256 ![2] bcast_S256_S1x1x256_2 b))) (constant S_ .f32 0x00000000#32) reducesTo_S128x200x256_S128x256_d1 h_S_

/-- The state after the embedding and two rounds. -/
def state2R (a0 : FVec F S128x200x8 .f32) (a1 : FVec F S8x256 .f32) (a2 : FVec F S256 .f32) (a3 : FVec F S512x256 .f32) (a4 : FVec F S256 .f32)
    (a5 : FVec F S512x256 .f32) (a6 : FVec F S256 .f32) : FVec F S128x200x256 .f32 :=
  updR (updR (embR a0 a1 a2) a3 a4) a5 a6

/-- The reference's first result as a function of its thirteen arguments. -/
def refOut (a0 : FVec F S128x200x8 .f32) (a1 : FVec F S8x256 .f32) (a2 : FVec F S256 .f32) (a3 : FVec F S512x256 .f32) (a4 : FVec F S256 .f32)
    (a5 : FVec F S512x256 .f32) (a6 : FVec F S256 .f32)
    (a7 : FVec F S512x256 .f32) (a8 : FVec F S256 .f32)
    (a9 : FVec F S256x256 .f32) (a10 : FVec F S256 .f32) (a11 : FVec F S256x256 .f32) (a12 : FVec F S256 .f32) : FVec F S128x256 .f32 :=
  sumR (fc1R (updR (state2R a0 a1 a2 a3 a4 a5 a6) a7 a8) a9 a10) a11 a12

/-- The reference's second result. -/
def refAtt (a0 : FVec F S128x200x8 .f32) (a1 : FVec F S8x256 .f32) (a2 : FVec F S256 .f32) (a3 : FVec F S512x256 .f32) (a4 : FVec F S256 .f32)
    (a5 : FVec F S512x256 .f32) (a6 : FVec F S256 .f32) : FVec F S128x200x200 .f32 :=
  normR (pexpR (logitR (state2R a0 a1 a2 a3 a4 a5 a6)))

end Stages

end Cert.ReferenceIdeal.Ref

end
-- ==== Proof.RRun.lean ====
/-
  The reference program's run, read back: every weakly fair execution terminates with the two result buffers at the stages'
  composed functions of the thirteen argument arrays as launched, the arguments unchanged. The 93 host operations are run
  in stretches (the embedding; each round's attention and messages, then its update, cut where the state and the messages
  are concatenated; the readout), each stretch's result buffers read off its own operations.
-/
import proofs.«174277_g85813446574462_cont_9to1c4b_288_11_alg».proof.Proof.Gen.ReferenceIdeal
import proofs.«174277_g85813446574462_cont_9to1c4b_288_11_alg».proof.Proof.RStages
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.Ref Idealize.ShloMosaic Idealize.ShloMosaic.TcCoe Idealize.SL.Sem Idealize.ShloMosaic.StableHlo

variable {F : FTy → Type} [FloatOps F]

/-- An operation whose one written buffer is in a list of references writes inside that list. -/
theorem writes_in {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]; exact List.mem_map_of_mem hy

/-! ## The five stretches of operations -/

/-- The embedding's operations: the product with the embedding weights, the bias broadcast over jets and nodes, their sum, and its hyperbolic tangent. -/
abbrev opsE : List (HloOp τ sig (Elt F)) :=
  [ binary main_arg0 main_arg1 main_v0 ((fun l r => Host.dotGeneral dot_S128x200x8_S8x256_S128x200x256_2_0_01_1_n_n none l r) : (⟨S128x200x8, .f32⟩ : BufTy).Contents (Elt F) → (⟨S8x256, .f32⟩ : BufTy).Contents (Elt F) → (⟨S128x200x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v0 main_v2 main_v3 (addf : (⟨S128x200x256, .f32⟩ : BufTy).Contents (Elt F) → (⟨S128x200x256, .f32⟩ : BufTy).Contents (Elt F) → (⟨S128x200x256, .f32⟩ : BufTy).Contents (Elt F)),
    unary main_v3 main_v4 (Host.tanh : (⟨S128x200x256, .f32⟩ : BufTy).Contents (Elt F) → (⟨S128x200x256, .f32⟩ : BufTy).Contents (Elt F)) ]

/-- Every buffer these operations touch is a TensorCore reference. -/
theorem opsE_sub : (opsE : List (HloOp τ sig (Elt F))).Forall fun op => op.bufs ⊆ tcRefs τ sig :=
  ⟨binary_bufs_sub .., unary_bufs_sub .., unary_bufs_sub .., binary_bufs_sub .., unary_bufs_sub ..⟩
/-- Each of these operations determines what it writes. -/
theorem opsE_fresh : (opsE : List (HloOp τ sig (Elt F))).Forall fun op => op.fresh = ∅ :=
  ⟨rfl, rfl, rfl, rfl, rfl⟩
/-- The buffers these operations write, in order. -/
abbrev wE : List (Ref sig .tc) := [main_v0, main_v1, main_v2, main_v3, main_v4]
theorem opsE_writes : (opsE : List (HloOp τ sig (Elt F))).Forall fun op =>
    op.writes ⊆ (wE.map (Proc.devRef (τ := τ) .tc)).toFinset :=
  ⟨writes_in rfl (by decide), writes_in rfl (by decide), writes_in rfl (by decide), writes_in rfl (by decide), writes_in rfl (by decide)⟩
/-- A buffer these operations do not write keeps its contents through them. -/
theorem opsE_keep (V : Valuation τ sig (Elt F)) (r : Ref sig .tc) (h : r ∉ wE) :
    after opsE V (Proc.devRef .tc r) = V (Proc.devRef .tc r) :=
  after_of_writes_sub opsE V opsE_writes h

/-- The first round's operations: the scaled logits, their row maxima and shifted exponentials, the row sums and the normalised weights, the messages, the concatenation of state and messages, and the update layer. -/
abbrev opsR1 : List (HloOp τ sig (Elt F)) :=
  [ nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)),
    binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)),
    binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)) ]

/-- Every buffer these operations touch is a TensorCore reference. -/
theorem opsR1_sub : (opsR1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub ..⟩
/-- Each of these operations determines what it writes. -/
theorem opsR1_fresh : (opsR1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev wR1 : List (Ref sig .tc) := [main_cst, main_v5, main_v6, main_cst_0, main_v7, main_v8, main_cst_1, main_v9, main_cst_2, main_v10, main_v11, main_v12, main_v13, main_v14, main_v15, main_cst_3, main_v16, main_v17, main_v18, main_v19, main_v20, main_v21, main_v22, main_v23, main_v24, main_v25, main_v26]
theorem opsR1_writes : (opsR1 : List (HloOp τ sig (Elt F))).Forall fun op =>
    op.writes ⊆ (wR1.map (Proc.devRef (τ := τ) .tc)).toFinset :=
  ⟨writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide)⟩
/-- A buffer these operations do not write keeps its contents through them. -/
theorem opsR1_keep (V : Valuation τ sig (Elt F)) (r : Ref sig .tc) (h : r ∉ wR1) :
    after opsR1 V (Proc.devRef .tc r) = V (Proc.devRef .tc r) :=
  after_of_writes_sub opsR1 V opsR1_writes h

/-- The second round's operations, of the same shape as the first's, from the first round's state. -/
abbrev opsR2 : List (HloOp τ sig (Elt F)) :=
  [ binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)),
    binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)) ]

/-- Every buffer these operations touch is a TensorCore reference. -/
theorem opsR2_sub : (opsR2 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub ..⟩
/-- Each of these operations determines what it writes. -/
theorem opsR2_fresh : (opsR2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev wR2 : List (Ref sig .tc) := [main_v27, main_cst_4, main_v28, main_v29, main_cst_5, main_v30, main_cst_6, main_v31, main_v32, main_v33, main_v34, main_v35, main_v36, main_cst_7, main_v37, main_v38, main_v39, main_v40, main_v41, main_v42, main_v43, main_v44, main_v45, main_v46, main_v47]
theorem opsR2_writes : (opsR2 : List (HloOp τ sig (Elt F))).Forall fun op =>
    op.writes ⊆ (wR2.map (Proc.devRef (τ := τ) .tc)).toFinset :=
  ⟨writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide)⟩
/-- A buffer these operations do not write keeps its contents through them. -/
theorem opsR2_keep (V : Valuation τ sig (Elt F)) (r : Ref sig .tc) (h : r ∉ wR2) :
    after opsR2 V (Proc.devRef .tc r) = V (Proc.devRef .tc r) :=
  after_of_writes_sub opsR2 V opsR2_writes h

/-- The third round's operations, from the second round's state; its normalised weights are the program's second result. -/
abbrev opsR3 : List (HloOp τ sig (Elt F)) :=
  [ binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)),
    binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)),
    binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)) ]

/-- Every buffer these operations touch is a TensorCore reference. -/
theorem opsR3_sub : (opsR3 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub ..⟩
/-- Each of these operations determines what it writes. -/
theorem opsR3_fresh : (opsR3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev wR3 : List (Ref sig .tc) := [main_v48, main_cst_8, main_v49, main_v50, main_cst_9, main_v51, main_cst_10, main_v52, main_v53, main_v54, main_v55, main_v56, main_v57, main_cst_11, main_v58, main_v59, main_v60, main_v61, main_v62, main_v63, main_v64, main_v65, main_v66, main_v67, main_v68]
theorem opsR3_writes : (opsR3 : List (HloOp τ sig (Elt F))).Forall fun op =>
    op.writes ⊆ (wR3.map (Proc.devRef (τ := τ) .tc)).toFinset :=
  ⟨writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide)⟩
/-- A buffer these operations do not write keeps its contents through them. -/
theorem opsR3_keep (V : Valuation τ sig (Elt F)) (r : Ref sig .tc) (h : r ∉ wR3) :
    after opsR3 V (Proc.devRef .tc r) = V (Proc.devRef .tc r) :=
  after_of_writes_sub opsR3 V opsR3_writes h

/-- The readout's operations: the first layer with its hyperbolic tangent, the second layer with its bias, and the sum over the nodes. -/
abbrev opsT : List (HloOp τ sig (Elt F)) :=
  [ binary main_v68 main_arg9 main_v69 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg10 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v69 main_v71 main_v72 (addf : (⟨S128x200x256, .f32⟩ : BufTy).Contents (Elt F) → (⟨S128x200x256, .f32⟩ : BufTy).Contents (Elt F) → (⟨S128x200x256, .f32⟩ : BufTy).Contents (Elt F)),
    unary main_v72 main_v73 (Host.tanh : (⟨S128x200x256, .f32⟩ : BufTy).Contents (Elt F) → (⟨S128x200x256, .f32⟩ : BufTy).Contents (Elt F)),
    binary main_v73 main_arg11 main_v74 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg12 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v74 main_v76 main_v77 (addf : (⟨S128x200x256, .f32⟩ : BufTy).Contents (Elt F) → (⟨S128x200x256, .f32⟩ : BufTy).Contents (Elt F) → (⟨S128x200x256, .f32⟩ : BufTy).Contents (Elt F)),
    nullary main_cst_12 (constant S_ .f32 0x00000000#32),
    binary main_v77 main_cst_12 main_v78 ((fun x v => Host.reduceAdd x v reducesTo_S128x200x256_S128x256_d1 h_S_) : (⟨S128x200x256, .f32⟩ : BufTy).Contents (Elt F) → (⟨S_, .f32⟩ : BufTy).Contents (Elt F) → (⟨S128x256, .f32⟩ : BufTy).Contents (Elt F)) ]

/-- Every buffer these operations touch is a TensorCore reference. -/
theorem opsT_sub : (opsT : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., nullary_bufs_sub .., binary_bufs_sub ..⟩
/-- Each of these operations determines what it writes. -/
theorem opsT_fresh : (opsT : List (HloOp τ sig (Elt F))).Forall fun op => op.fresh = ∅ :=
  ⟨rfl, rfl, rfl, rfl, rfl, rfl, rfl, rfl, rfl, rfl, rfl⟩
/-- The buffers these operations write, in order. -/
abbrev wT : List (Ref sig .tc) := [main_v69, main_v70, main_v71, main_v72, main_v73, main_v74, main_v75, main_v76, main_v77, main_cst_12, main_v78]
theorem opsT_writes : (opsT : List (HloOp τ sig (Elt F))).Forall fun op =>
    op.writes ⊆ (wT.map (Proc.devRef (τ := τ) .tc)).toFinset :=
  ⟨writes_in rfl (by decide), writes_in rfl (by decide), writes_in rfl (by decide), writes_in rfl (by decide), writes_in rfl (by decide), writes_in rfl (by decide), writes_in rfl (by decide), writes_in rfl (by decide), writes_in rfl (by decide), writes_in rfl (by decide), writes_in rfl (by decide)⟩
/-- A buffer these operations do not write keeps its contents through them. -/
theorem opsT_keep (V : Valuation τ sig (Elt F)) (r : Ref sig .tc) (h : r ∉ wT) :
    after opsT V (Proc.devRef .tc r) = V (Proc.devRef .tc r) :=
  after_of_writes_sub opsT V opsT_writes h

/-! ## What each stretch computes, from any contents `V`

A round is read in two parts, cut before its concatenation, so that the concatenation's operands are buffers as they stand. -/

/-- The embedding leaves its stage's value of the first three arguments in its last buffer. -/
theorem opsE_v4 (V : Valuation τ sig (Elt F)) :
    after opsE V (Proc.devRef .tc main_v4) = embR (V (Proc.devRef .tc main_arg0)) (V (Proc.devRef .tc main_arg1)) (V (Proc.devRef .tc main_arg2)) := by
  after_results_simp
  rfl

/-- The first round up to its messages: the normalised weights of the incoming state, applied to it. -/
abbrev opsA1 : List (HloOp τ sig (Elt F)) :=
  [ nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)),
    binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)),
    binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

/-- The first round from its concatenation on: state and messages side by side, through the update layer. -/
abbrev opsU1 : List (HloOp τ sig (Elt F)) :=
  [ binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)) ]

theorem opsR1_cut : (opsR1 : List (HloOp τ sig (Elt F))) = opsA1 ++ opsU1 := rfl

/-- The messages: the weights of the incoming state times that state. -/
theorem opsA1_v20 (V : Valuation τ sig (Elt F)) :
    after opsA1 V (Proc.devRef .tc main_v20)
      = Host.dotGeneral dot_S128x200x200_S128x200x256_S128x200x256_2_1_1_2_0_0 none (normR (pexpR (logitR (V (Proc.devRef .tc main_v4))))) (V (Proc.devRef .tc main_v4)) := by
  after_results_simp
  rfl
theorem opsA1_v4 (V : Valuation τ sig (Elt F)) : after opsA1 V (Proc.devRef .tc main_v4) = (V (Proc.devRef .tc main_v4)) := by
  after_results_simp
theorem opsA1_arg3 (V : Valuation τ sig (Elt F)) : after opsA1 V (Proc.devRef .tc main_arg3) = (V (Proc.devRef .tc main_arg3)) := by
  after_results_simp
theorem opsA1_arg4 (V : Valuation τ sig (Elt F)) : after opsA1 V (Proc.devRef .tc main_arg4) = (V (Proc.devRef .tc main_arg4)) := by
  after_results_simp

/-- The update layer over the state and the messages as they stand. -/
theorem opsU1_v26 (V : Valuation τ sig (Elt F)) :
    after opsU1 V (Proc.devRef .tc main_v26)
      = Host.tanh (addf (Host.dotGeneral dot_S128x200x512_S512x256_S128x200x256_2_0_01_1_n_n none (concatenate S128x200x512 2 [⟨S128x200x256, (V (Proc.devRef .tc main_v4))⟩, ⟨S128x200x256, (V (Proc.devRef .tc main_v20))⟩] concatenates_S128x200x256_S128x200x256_S128x200x512_d2) (V (Proc.devRef .tc main_arg3))) (broadcastInDim S128x200x256 ![0, 1, 2] bcast_S1x1x256_S128x200x256_0_1_2 (broadcastInDim S1x1x256 ![2] bcast_S256_S1x1x256_2 (V (Proc.devRef .tc main_arg4))))) := by
  after_results_simp

/-- The first round leaves the update of its incoming state by its own weights and bias in its last buffer. -/
theorem opsR1_v26 (V : Valuation τ sig (Elt F)) :
    after opsR1 V (Proc.devRef .tc main_v26) = updR (V (Proc.devRef .tc main_v4)) (V (Proc.devRef .tc main_arg3)) (V (Proc.devRef .tc main_arg4)) := by
  rw [opsR1_cut, after_append, opsU1_v26, opsA1_v20, opsA1_v4, opsA1_arg3, opsA1_arg4]
  rfl

/-- The second round up to its messages: the normalised weights of the incoming state, applied to it. -/
abbrev opsA2 : List (HloOp τ sig (Elt F)) :=
  [ binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)),
    binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

/-- The second round from its concatenation on: state and messages side by side, through the update layer. -/
abbrev opsU2 : List (HloOp τ sig (Elt F)) :=
  [ binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)) ]

theorem opsR2_cut : (opsR2 : List (HloOp τ sig (Elt F))) = opsA2 ++ opsU2 := rfl

/-- The messages: the weights of the incoming state times that state. -/
theorem opsA2_v41 (V : Valuation τ sig (Elt F)) :
    after opsA2 V (Proc.devRef .tc main_v41)
      = Host.dotGeneral dot_S128x200x200_S128x200x256_S128x200x256_2_1_1_2_0_0 none (normR (pexpR (logitR (V (Proc.devRef .tc main_v26))))) (V (Proc.devRef .tc main_v26)) := by
  after_results_simp
  rfl
theorem opsA2_v26 (V : Valuation τ sig (Elt F)) : after opsA2 V (Proc.devRef .tc main_v26) = (V (Proc.devRef .tc main_v26)) := by
  after_results_simp
theorem opsA2_arg5 (V : Valuation τ sig (Elt F)) : after opsA2 V (Proc.devRef .tc main_arg5) = (V (Proc.devRef .tc main_arg5)) := by
  after_results_simp
theorem opsA2_arg6 (V : Valuation τ sig (Elt F)) : after opsA2 V (Proc.devRef .tc main_arg6) = (V (Proc.devRef .tc main_arg6)) := by
  after_results_simp

/-- The update layer over the state and the messages as they stand. -/
theorem opsU2_v47 (V : Valuation τ sig (Elt F)) :
    after opsU2 V (Proc.devRef .tc main_v47)
      = Host.tanh (addf (Host.dotGeneral dot_S128x200x512_S512x256_S128x200x256_2_0_01_1_n_n none (concatenate S128x200x512 2 [⟨S128x200x256, (V (Proc.devRef .tc main_v26))⟩, ⟨S128x200x256, (V (Proc.devRef .tc main_v41))⟩] concatenates_S128x200x256_S128x200x256_S128x200x512_d2) (V (Proc.devRef .tc main_arg5))) (broadcastInDim S128x200x256 ![0, 1, 2] bcast_S1x1x256_S128x200x256_0_1_2 (broadcastInDim S1x1x256 ![2] bcast_S256_S1x1x256_2 (V (Proc.devRef .tc main_arg6))))) := by
  after_results_simp

/-- The second round leaves the update of its incoming state by its own weights and bias in its last buffer. -/
theorem opsR2_v47 (V : Valuation τ sig (Elt F)) :
    after opsR2 V (Proc.devRef .tc main_v47) = updR (V (Proc.devRef .tc main_v26)) (V (Proc.devRef .tc main_arg5)) (V (Proc.devRef .tc main_arg6)) := by
  rw [opsR2_cut, after_append, opsU2_v47, opsA2_v41, opsA2_v26, opsA2_arg5, opsA2_arg6]
  rfl

/-- The third round up to its messages: the normalised weights of the incoming state, applied to it. -/
abbrev opsA3 : List (HloOp τ sig (Elt F)) :=
  [ binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)),
    binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)),
    binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

/-- The third round from its concatenation on: state and messages side by side, through the update layer. -/
abbrev opsU3 : List (HloOp τ sig (Elt F)) :=
  [ binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)) ]

theorem opsR3_cut : (opsR3 : List (HloOp τ sig (Elt F))) = opsA3 ++ opsU3 := rfl

/-- The messages: the weights of the incoming state times that state. -/
theorem opsA3_v62 (V : Valuation τ sig (Elt F)) :
    after opsA3 V (Proc.devRef .tc main_v62)
      = Host.dotGeneral dot_S128x200x200_S128x200x256_S128x200x256_2_1_1_2_0_0 none (normR (pexpR (logitR (V (Proc.devRef .tc main_v47))))) (V (Proc.devRef .tc main_v47)) := by
  after_results_simp
  rfl
theorem opsA3_v47 (V : Valuation τ sig (Elt F)) : after opsA3 V (Proc.devRef .tc main_v47) = (V (Proc.devRef .tc main_v47)) := by
  after_results_simp
theorem opsA3_arg7 (V : Valuation τ sig (Elt F)) : after opsA3 V (Proc.devRef .tc main_arg7) = (V (Proc.devRef .tc main_arg7)) := by
  after_results_simp
theorem opsA3_arg8 (V : Valuation τ sig (Elt F)) : after opsA3 V (Proc.devRef .tc main_arg8) = (V (Proc.devRef .tc main_arg8)) := by
  after_results_simp

/-- The update layer over the state and the messages as they stand. -/
theorem opsU3_v68 (V : Valuation τ sig (Elt F)) :
    after opsU3 V (Proc.devRef .tc main_v68)
      = Host.tanh (addf (Host.dotGeneral dot_S128x200x512_S512x256_S128x200x256_2_0_01_1_n_n none (concatenate S128x200x512 2 [⟨S128x200x256, (V (Proc.devRef .tc main_v47))⟩, ⟨S128x200x256, (V (Proc.devRef .tc main_v62))⟩] concatenates_S128x200x256_S128x200x256_S128x200x512_d2) (V (Proc.devRef .tc main_arg7))) (broadcastInDim S128x200x256 ![0, 1, 2] bcast_S1x1x256_S128x200x256_0_1_2 (broadcastInDim S1x1x256 ![2] bcast_S256_S1x1x256_2 (V (Proc.devRef .tc main_arg8))))) := by
  after_results_simp

/-- The third round leaves the update of its incoming state by its own weights and bias in its last buffer. -/
theorem opsR3_v68 (V : Valuation τ sig (Elt F)) :
    after opsR3 V (Proc.devRef .tc main_v68) = updR (V (Proc.devRef .tc main_v47)) (V (Proc.devRef .tc main_arg7)) (V (Proc.devRef .tc main_arg8)) := by
  rw [opsR3_cut, after_append, opsU3_v68, opsA3_v62, opsA3_v47, opsA3_arg7, opsA3_arg8]
  rfl

/-- The third round leaves the normalised weights of its incoming state in the buffer of its division. -/
theorem opsR3_v61 (V : Valuation τ sig (Elt F)) :
    after opsR3 V (Proc.devRef .tc main_v61) = normR (pexpR (logitR (V (Proc.devRef .tc main_v47)))) := by
  after_results_simp
  rfl

/-- The readout leaves the summed second layer of the first layer of the last state in its last buffer. -/
theorem opsT_v78 (V : Valuation τ sig (Elt F)) :
    after opsT V (Proc.devRef .tc main_v78) = sumR (fc1R (V (Proc.devRef .tc main_v68)) (V (Proc.devRef .tc main_arg9)) (V (Proc.devRef .tc main_arg10))) (V (Proc.devRef .tc main_arg11)) (V (Proc.devRef .tc main_arg12)) := by
  after_results_simp
  rfl

/-! ## The whole line -/

/-- @main's 93 operations, in order: the five stretches one after the other. -/
abbrev ops : List (HloOp τ sig (Elt F)) := opsE ++ (opsR1 ++ (opsR2 ++ (opsR3 ++ opsT)))

/-! @main runs its two parts one after the other; each part is the straight line of its own operations, and the two
    lines in a row are the line of all. -/

/-- The operations of @main's first sixty statements. -/
abbrev opsP0 : List (HloOp τ sig (Elt F)) :=
  [ binary main_arg0 main_arg1 main_v0 ((fun l r => Host.dotGeneral dot_S128x200x8_S8x256_S128x200x256_2_0_01_1_n_n none l r) : (⟨S128x200x8, .f32⟩ : BufTy).Contents (Elt F) → (⟨S8x256, .f32⟩ : BufTy).Contents (Elt F) → (⟨S128x200x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v0 main_v2 main_v3 (addf : (⟨S128x200x256, .f32⟩ : BufTy).Contents (Elt F) → (⟨S128x200x256, .f32⟩ : BufTy).Contents (Elt F) → (⟨S128x200x256, .f32⟩ : BufTy).Contents (Elt F)),
    unary main_v3 main_v4 (Host.tanh : (⟨S128x200x256, .f32⟩ : BufTy).Contents (Elt F) → (⟨S128x200x256, .f32⟩ : BufTy).Contents (Elt F)),
    nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)),
    binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)),
    binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)),
    binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)),
    binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)),
    binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)) ]

/-- The operations of @main's remaining statements. -/
abbrev opsP1 : List (HloOp τ sig (Elt F)) :=
  [ binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)),
    binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)),
    binary main_v68 main_arg9 main_v69 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg10 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v69 main_v71 main_v72 (addf : (⟨S128x200x256, .f32⟩ : BufTy).Contents (Elt F) → (⟨S128x200x256, .f32⟩ : BufTy).Contents (Elt F) → (⟨S128x200x256, .f32⟩ : BufTy).Contents (Elt F)),
    unary main_v72 main_v73 (Host.tanh : (⟨S128x200x256, .f32⟩ : BufTy).Contents (Elt F) → (⟨S128x200x256, .f32⟩ : BufTy).Contents (Elt F)),
    binary main_v73 main_arg11 main_v74 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg12 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v74 main_v76 main_v77 (addf : (⟨S128x200x256, .f32⟩ : BufTy).Contents (Elt F) → (⟨S128x200x256, .f32⟩ : BufTy).Contents (Elt F) → (⟨S128x200x256, .f32⟩ : BufTy).Contents (Elt F)),
    nullary main_cst_12 (constant S_ .f32 0x00000000#32),
    binary main_v77 main_cst_12 main_v78 ((fun x v => Host.reduceAdd x v reducesTo_S128x200x256_S128x256_d1 h_S_) : (⟨S128x200x256, .f32⟩ : BufTy).Contents (Elt F) → (⟨S_, .f32⟩ : BufTy).Contents (Elt F) → (⟨S128x256, .f32⟩ : BufTy).Contents (Elt F)) ]

theorem ops_cut : (ops : List (HloOp τ sig (Elt F))) = opsP0 ++ opsP1 := rfl

set_option maxRecDepth 8192 in
set_option maxHeartbeats 4000000 in
theorem main_part0_eq (c : Dev nD) : main_part0 (F := F) c = seq opsP0 := rfl

set_option maxRecDepth 8192 in
set_option maxHeartbeats 4000000 in
theorem main_part1_eq (c : Dev nD) : main_part1 (F := F) c = seq opsP1 := rfl

/-- @main is the straight line of these operations. -/
theorem main_eq (c : Dev nD) : main (F := F) c = seq ops := by
  rw [ops_cut, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsE_sub, List.forall_append.mpr ⟨opsR1_sub, List.forall_append.mpr ⟨opsR2_sub,
    List.forall_append.mpr ⟨opsR3_sub, opsT_sub⟩⟩⟩⟩

theorem ops_fresh : ∀ op ∈ (ops : List (HloOp τ sig (Elt F))), op.fresh = ∅ :=
  List.forall_iff_forall_mem.mp (List.forall_append.mpr ⟨opsE_fresh, List.forall_append.mpr ⟨opsR1_fresh,
    List.forall_append.mpr ⟨opsR2_fresh, List.forall_append.mpr ⟨opsR3_fresh, opsT_fresh⟩⟩⟩⟩)

/-- The contents after the whole line are the stretches' effects composed. -/
theorem after_ops (V : Valuation τ sig (Elt F)) :
    after ops V = after opsT (after opsR3 (after opsR2 (after opsR1 (after opsE V)))) := by
  simp only [ops, after_append]

/-- A buffer the embedding and the first round do not write holds after them what it held before. -/
theorem keep2 (V : Valuation τ sig (Elt F)) (r : Ref sig .tc) (hE : r ∉ wE) (h1 : r ∉ wR1) :
    after opsR1 (after opsE V) (Proc.devRef .tc r) = V (Proc.devRef .tc r) :=
  (opsR1_keep _ r h1).trans (opsE_keep V r hE)

/-- The same through the second round. -/
theorem keep3 (V : Valuation τ sig (Elt F)) (r : Ref sig .tc) (hE : r ∉ wE) (h1 : r ∉ wR1) (h2 : r ∉ wR2) :
    after opsR2 (after opsR1 (after opsE V)) (Proc.devRef .tc r) = V (Proc.devRef .tc r) :=
  (opsR2_keep _ r h2).trans (keep2 V r hE h1)

/-- The same through the third round. -/
theorem keep4 (V : Valuation τ sig (Elt F)) (r : Ref sig .tc) (hE : r ∉ wE) (h1 : r ∉ wR1) (h2 : r ∉ wR2) (h3 : r ∉ wR3) :
    after opsR3 (after opsR2 (after opsR1 (after opsE V))) (Proc.devRef .tc r) = V (Proc.devRef .tc r) :=
  (opsR3_keep _ r h3).trans (keep3 V r hE h1 h2)

/-- A buffer no operation writes holds at the end what it held at the start. -/
theorem ops_keep (V : Valuation τ sig (Elt F)) (r : Ref sig .tc) (hE : r ∉ wE) (h1 : r ∉ wR1) (h2 : r ∉ wR2) (h3 : r ∉ wR3)
    (hT : r ∉ wT) : after ops V (Proc.devRef .tc r) = V (Proc.devRef .tc r) := by
  rw [after_ops]
  exact (opsT_keep _ r hT).trans (keep4 V r hE h1 h2 h3)

/-- After the embedding and two rounds the state is that of the first seven arguments. -/
theorem state2_eq (V : Valuation τ sig (Elt F)) :
    after opsR2 (after opsR1 (after opsE V)) (Proc.devRef .tc main_v47)
      = state2R (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [opsR2_v47, opsR1_v26, opsE_v4, opsE_keep V main_arg3 (by decide), opsE_keep V main_arg4 (by decide),
    keep2 V main_arg5 (by decide) (by decide), keep2 V main_arg6 (by decide) (by decide)]
  rfl

/-- The first result: the readout of the third round's update of that state. -/
theorem ops_v78 (V : Valuation τ sig (Elt F)) :
    after ops V (Proc.devRef .tc main_v78)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops, opsT_v78, opsR3_v68, state2_eq,
    keep3 V main_arg7 (by decide) (by decide) (by decide), keep3 V main_arg8 (by decide) (by decide) (by decide),
    keep4 V main_arg9 (by decide) (by decide) (by decide) (by decide), keep4 V main_arg10 (by decide) (by decide) (by decide) (by decide),
    keep4 V main_arg11 (by decide) (by decide) (by decide) (by decide), keep4 V main_arg12 (by decide) (by decide) (by decide) (by decide)]
  rfl

/-- The second result: the third round's normalised weights, which the readout leaves alone. -/
theorem ops_v61 (V : Valuation τ sig (Elt F)) :
    after ops V (Proc.devRef .tc main_v61)
      = refAtt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops, opsT_keep _ main_v61 (by decide), opsR3_v61, state2_eq]
  rfl

/-- On every device, for any float values, from any memory with zero counters: every weakly fair execution of @main
    terminates with each result at the stages' composed function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v61) = refAtt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v78).trans (ops_v78 (launchContents m c)),
      (h c main_v61).trans (ops_v61 (launchContents m c)),
      (h c main_arg0).trans (ops_keep (launchContents m c) main_arg0 (by decide) (by decide) (by decide) (by decide) (by decide)),
      (h c main_arg1).trans (ops_keep (launchContents m c) main_arg1 (by decide) (by decide) (by decide) (by decide) (by decide)),
      (h c main_arg2).trans (ops_keep (launchContents m c) main_arg2 (by decide) (by decide) (by decide) (by decide) (by decide)),
      (h c main_arg3).trans (ops_keep (launchContents m c) main_arg3 (by decide) (by decide) (by decide) (by decide) (by decide)),
      (h c main_arg4).trans (ops_keep (launchContents m c) main_arg4 (by decide) (by decide) (by decide) (by decide) (by decide)),
      (h c main_arg5).trans (ops_keep (launchContents m c) main_arg5 (by decide) (by decide) (by decide) (by decide) (by decide)),
      (h c main_arg6).trans (ops_keep (launchContents m c) main_arg6 (by decide) (by decide) (by decide) (by decide) (by decide)),
      (h c main_arg7).trans (ops_keep (launchContents m c) main_arg7 (by decide) (by decide) (by decide) (by decide) (by decide)),
      (h c main_arg8).trans (ops_keep (launchContents m c) main_arg8 (by decide) (by decide) (by decide) (by decide) (by decide)),
      (h c main_arg9).trans (ops_keep (launchContents m c) main_arg9 (by decide) (by decide) (by decide) (by decide) (by decide)),
      (h c main_arg10).trans (ops_keep (launchContents m c) main_arg10 (by decide) (by decide) (by decide) (by decide) (by decide)),
      (h c main_arg11).trans (ops_keep (launchContents m c) main_arg11 (by decide) (by decide) (by decide) (by decide) (by decide)),
      (h c main_arg12).trans (ops_keep (launchContents m c) main_arg12 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RRead.lean ====
/-
  The reference's stages read at an index, at the ideal instance: the batched products are finite sums over the contracted
  axis within one jet's slab, the row maximum a fold of max, the concatenated operand of the 512-row weight splits its sum
  into the upper and the lower 256 rows, and the final sum over the nodes of (y + b₂) is the sum of y plus 200·b₂. So the two
  results are the network's, jet by jet.
-/
import proofs.«174277_g85813446574462_cont_9to1c4b_288_11_alg».proof.Proof.Gen.ReferenceIdeal
import proofs.«174277_g85813446574462_cont_9to1c4b_288_11_alg».proof.Proof.Spec
import proofs.«174277_g85813446574462_cont_9to1c4b_288_11_alg».proof.Proof.RStages
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.Ref

open Idealize.ShloMosaic Idealize.ShloMosaic.ValueIdx Cert.ReferenceIdeal Cert.ReferenceIdeal.Facts₀ Cert.ReferenceIdeal.Facts Cert.Mpnn

/-! ## The five products read at an index -/

/-- The embedding's product: the sum over the 8 features. -/
theorem dot8_apply (A : FVec Ideal S128x200x8 .f32) (B : FVec Ideal S8x256 .f32) (b : Fin 128) (n : Fin 200) (e : Fin 256) :
    Host.dotGeneral dot_S128x200x8_S8x256_S128x200x256_2_0_01_1_n_n none A B (ix3 b n e) = ∑ k : Fin 8, A (ix3 b n k) * B (ix2 k e) := by
  show FloatOps.dotGeneral _ none _ A B (ix3 b n e) = _
  rw [Ideal.dotGeneral_apply, ← Equiv.sum_comp (contrEquiv1 dot_S128x200x8_S8x256_S128x200x256_2_0_01_1_n_n 8 rfl rfl).symm]
  refine Finset.sum_congr rfl fun c _ => ?_
  have c3 := contrEquiv1_symm_val dot_S128x200x8_S8x256_S128x200x256_2_0_01_1_n_n 8 rfl rfl c
  have l3 : dot_S128x200x8_S8x256_S128x200x256_2_0_01_1_n_n.lhsIdx (ix3 b n e) ((contrEquiv1 _ 8 rfl rfl).symm c) = ix3 b n c := by
    funext ax; apply Fin.ext
    match ax with
    | ⟨0, _⟩ => simp [DotDims.lhsIdx, dot_S128x200x8_S8x256_S128x200x256_2_0_01_1_n_n]; rfl
    | ⟨1, _⟩ => simp [DotDims.lhsIdx, dot_S128x200x8_S8x256_S128x200x256_2_0_01_1_n_n]; rfl
    | ⟨2, _⟩ => simp [DotDims.lhsIdx, dot_S128x200x8_S8x256_S128x200x256_2_0_01_1_n_n]; exact c3
  have r3 : dot_S128x200x8_S8x256_S128x200x256_2_0_01_1_n_n.rhsIdx (ix3 b n e) ((contrEquiv1 _ 8 rfl rfl).symm c) = ix2 c e := by
    funext ax; apply Fin.ext
    match ax with
    | ⟨0, _⟩ => simp [DotDims.rhsIdx, dot_S128x200x8_S8x256_S128x200x256_2_0_01_1_n_n]; exact c3
    | ⟨1, _⟩ => simp [DotDims.rhsIdx, dot_S128x200x8_S8x256_S128x200x256_2_0_01_1_n_n]; rfl
  rw [l3, r3]

/-- The logits' product within a jet: the sum over the 256 channels of two nodes' states. -/
theorem dotL_apply (A B : FVec Ideal S128x200x256 .f32) (b : Fin 128) (n m : Fin 200) :
    Host.dotGeneral dot_S128x200x256_S128x200x256_S128x200x200_2_2_1_1_0_0 none A B (ix3 b n m) = ∑ k : Fin 256, A (ix3 b n k) * B (ix3 b m k) := by
  show FloatOps.dotGeneral _ none _ A B (ix3 b n m) = _
  rw [Ideal.dotGeneral_apply, ← Equiv.sum_comp (contrEquiv1 dot_S128x200x256_S128x200x256_S128x200x200_2_2_1_1_0_0 256 rfl rfl).symm]
  refine Finset.sum_congr rfl fun c _ => ?_
  have c3 := contrEquiv1_symm_val dot_S128x200x256_S128x200x256_S128x200x200_2_2_1_1_0_0 256 rfl rfl c
  have l3 : dot_S128x200x256_S128x200x256_S128x200x200_2_2_1_1_0_0.lhsIdx (ix3 b n m) ((contrEquiv1 _ 256 rfl rfl).symm c) = ix3 b n c := by
    funext ax; apply Fin.ext
    match ax with
    | ⟨0, _⟩ => simp [DotDims.lhsIdx, dot_S128x200x256_S128x200x256_S128x200x200_2_2_1_1_0_0]; rfl
    | ⟨1, _⟩ => simp [DotDims.lhsIdx, dot_S128x200x256_S128x200x256_S128x200x200_2_2_1_1_0_0]; rfl
    | ⟨2, _⟩ => simp [DotDims.lhsIdx, dot_S128x200x256_S128x200x256_S128x200x200_2_2_1_1_0_0]; exact c3
  have r3 : dot_S128x200x256_S128x200x256_S128x200x200_2_2_1_1_0_0.rhsIdx (ix3 b n m) ((contrEquiv1 _ 256 rfl rfl).symm c) = ix3 b m c := by
    funext ax; apply Fin.ext
    match ax with
    | ⟨0, _⟩ => simp [DotDims.rhsIdx, dot_S128x200x256_S128x200x256_S128x200x200_2_2_1_1_0_0]; rfl
    | ⟨1, _⟩ => simp [DotDims.rhsIdx, dot_S128x200x256_S128x200x256_S128x200x200_2_2_1_1_0_0]; rfl
    | ⟨2, _⟩ => simp [DotDims.rhsIdx, dot_S128x200x256_S128x200x256_S128x200x200_2_2_1_1_0_0]; exact c3
  rw [l3, r3]

/-- The messages' product within a jet: the sum over the 200 nodes of attention times state. -/
theorem dotM_apply (A : FVec Ideal S128x200x200 .f32) (B : FVec Ideal S128x200x256 .f32) (b : Fin 128) (n : Fin 200) (d : Fin 256) :
    Host.dotGeneral dot_S128x200x200_S128x200x256_S128x200x256_2_1_1_2_0_0 none A B (ix3 b n d) = ∑ k : Fin 200, A (ix3 b n k) * B (ix3 b k d) := by
  show FloatOps.dotGeneral _ none _ A B (ix3 b n d) = _
  rw [Ideal.dotGeneral_apply, ← Equiv.sum_comp (contrEquiv1 dot_S128x200x200_S128x200x256_S128x200x256_2_1_1_2_0_0 200 rfl rfl).symm]
  refine Finset.sum_congr rfl fun c _ => ?_
  have c3 := contrEquiv1_symm_val dot_S128x200x200_S128x200x256_S128x200x256_2_1_1_2_0_0 200 rfl rfl c
  have l3 : dot_S128x200x200_S128x200x256_S128x200x256_2_1_1_2_0_0.lhsIdx (ix3 b n d) ((contrEquiv1 _ 200 rfl rfl).symm c) = ix3 b n c := by
    funext ax; apply Fin.ext
    match ax with
    | ⟨0, _⟩ => simp [DotDims.lhsIdx, dot_S128x200x200_S128x200x256_S128x200x256_2_1_1_2_0_0]; rfl
    | ⟨1, _⟩ => simp [DotDims.lhsIdx, dot_S128x200x200_S128x200x256_S128x200x256_2_1_1_2_0_0]; rfl
    | ⟨2, _⟩ => simp [DotDims.lhsIdx, dot_S128x200x200_S128x200x256_S128x200x256_2_1_1_2_0_0]; exact c3
  have r3 : dot_S128x200x200_S128x200x256_S128x200x256_2_1_1_2_0_0.rhsIdx (ix3 b n d) ((contrEquiv1 _ 200 rfl rfl).symm c) = ix3 b c d := by
    funext ax; apply Fin.ext
    match ax with
    | ⟨0, _⟩ => simp [DotDims.rhsIdx, dot_S128x200x200_S128x200x256_S128x200x256_2_1_1_2_0_0]; rfl
    | ⟨1, _⟩ => simp [DotDims.rhsIdx, dot_S128x200x200_S128x200x256_S128x200x256_2_1_1_2_0_0]; exact c3
    | ⟨2, _⟩ => simp [DotDims.rhsIdx, dot_S128x200x200_S128x200x256_S128x200x256_2_1_1_2_0_0]; rfl
  rw [l3, r3]

/-- A round's product with its 512-row weight: the sum over the 512 concatenated channels. -/
theorem dot512_apply (A : FVec Ideal S128x200x512 .f32) (B : FVec Ideal S512x256 .f32) (b : Fin 128) (n : Fin 200) (e : Fin 256) :
    Host.dotGeneral dot_S128x200x512_S512x256_S128x200x256_2_0_01_1_n_n none A B (ix3 b n e) = ∑ k : Fin 512, A (ix3 b n k) * B (ix2 k e) := by
  show FloatOps.dotGeneral _ none _ A B (ix3 b n e) = _
  rw [Ideal.dotGeneral_apply, ← Equiv.sum_comp (contrEquiv1 dot_S128x200x512_S512x256_S128x200x256_2_0_01_1_n_n 512 rfl rfl).symm]
  refine Finset.sum_congr rfl fun c _ => ?_
  have c3 := contrEquiv1_symm_val dot_S128x200x512_S512x256_S128x200x256_2_0_01_1_n_n 512 rfl rfl c
  have l3 : dot_S128x200x512_S512x256_S128x200x256_2_0_01_1_n_n.lhsIdx (ix3 b n e) ((contrEquiv1 _ 512 rfl rfl).symm c) = ix3 b n c := by
    funext ax; apply Fin.ext
    match ax with
    | ⟨0, _⟩ => simp [DotDims.lhsIdx, dot_S128x200x512_S512x256_S128x200x256_2_0_01_1_n_n]; rfl
    | ⟨1, _⟩ => simp [DotDims.lhsIdx, dot_S128x200x512_S512x256_S128x200x256_2_0_01_1_n_n]; rfl
    | ⟨2, _⟩ => simp [DotDims.lhsIdx, dot_S128x200x512_S512x256_S128x200x256_2_0_01_1_n_n]; exact c3
  have r3 : dot_S128x200x512_S512x256_S128x200x256_2_0_01_1_n_n.rhsIdx (ix3 b n e) ((contrEquiv1 _ 512 rfl rfl).symm c) = ix2 c e := by
    funext ax; apply Fin.ext
    match ax with
    | ⟨0, _⟩ => simp [DotDims.rhsIdx, dot_S128x200x512_S512x256_S128x200x256_2_0_01_1_n_n]; exact c3
    | ⟨1, _⟩ => simp [DotDims.rhsIdx, dot_S128x200x512_S512x256_S128x200x256_2_0_01_1_n_n]; rfl
  rw [l3, r3]

/-- A readout layer's product: the sum over the 256 channels. -/
theorem dot256_apply (A : FVec Ideal S128x200x256 .f32) (B : FVec Ideal S256x256 .f32) (b : Fin 128) (n : Fin 200) (e : Fin 256) :
    Host.dotGeneral dot_S128x200x256_S256x256_S128x200x256_2_0_01_1_n_n none A B (ix3 b n e) = ∑ k : Fin 256, A (ix3 b n k) * B (ix2 k e) := by
  show FloatOps.dotGeneral _ none _ A B (ix3 b n e) = _
  rw [Ideal.dotGeneral_apply, ← Equiv.sum_comp (contrEquiv1 dot_S128x200x256_S256x256_S128x200x256_2_0_01_1_n_n 256 rfl rfl).symm]
  refine Finset.sum_congr rfl fun c _ => ?_
  have c3 := contrEquiv1_symm_val dot_S128x200x256_S256x256_S128x200x256_2_0_01_1_n_n 256 rfl rfl c
  have l3 : dot_S128x200x256_S256x256_S128x200x256_2_0_01_1_n_n.lhsIdx (ix3 b n e) ((contrEquiv1 _ 256 rfl rfl).symm c) = ix3 b n c := by
    funext ax; apply Fin.ext
    match ax with
    | ⟨0, _⟩ => simp [DotDims.lhsIdx, dot_S128x200x256_S256x256_S128x200x256_2_0_01_1_n_n]; rfl
    | ⟨1, _⟩ => simp [DotDims.lhsIdx, dot_S128x200x256_S256x256_S128x200x256_2_0_01_1_n_n]; rfl
    | ⟨2, _⟩ => simp [DotDims.lhsIdx, dot_S128x200x256_S256x256_S128x200x256_2_0_01_1_n_n]; exact c3
  have r3 : dot_S128x200x256_S256x256_S128x200x256_2_0_01_1_n_n.rhsIdx (ix3 b n e) ((contrEquiv1 _ 256 rfl rfl).symm c) = ix2 c e := by
    funext ax; apply Fin.ext
    match ax with
    | ⟨0, _⟩ => simp [DotDims.rhsIdx, dot_S128x200x256_S256x256_S128x200x256_2_0_01_1_n_n]; exact c3
    | ⟨1, _⟩ => simp [DotDims.rhsIdx, dot_S128x200x256_S256x256_S128x200x256_2_0_01_1_n_n]; rfl
  rw [l3, r3]

/-! ## The layout operations and the two reductions read at an index -/

/-- A bias broadcast over jets and nodes reads the bias at the channel. -/
theorem bias_apply (v : FVec Ideal S256 .f32) (b : Fin 128) (n : Fin 200) (e : Fin 256) :
    broadcastInDim S128x200x256 ![0, 1, 2] bcast_S1x1x256_S128x200x256_0_1_2 (broadcastInDim S1x1x256 ![2] bcast_S256_S1x1x256_2 v) (ix3 b n e) = v (ix1 e) := by
  rw [broadcastInDim_apply _ _ _ _ (ix3 (0 : Fin 1) (0 : Fin 1) e) (fun a => by
    match a with
    | ⟨0, _⟩ => rfl
    | ⟨1, _⟩ => rfl
    | ⟨2, _⟩ => rfl)]
  exact broadcastInDim_apply _ _ _ _ (ix1 e) (fun a => by
    match a with
    | ⟨0, _⟩ => rfl)

/-- A per-row value broadcast along the row reads the row's value. -/
theorem row_apply (v : FVec Ideal S128x200 .f32) (b : Fin 128) (n m : Fin 200) :
    broadcastInDim S128x200x200 ![0, 1, 2] bcast_S128x200x1_S128x200x200_0_1_2 (broadcastInDim S128x200x1 ![0, 1] bcast_S128x200_S128x200x1_0_1 v) (ix3 b n m) = v (ix2 b n) := by
  rw [broadcastInDim_apply _ _ _ _ (ix3 b n (0 : Fin 1)) (fun a => by
    match a with
    | ⟨0, _⟩ => rfl
    | ⟨1, _⟩ => rfl
    | ⟨2, _⟩ => rfl)]
  exact broadcastInDim_apply _ _ _ _ (ix2 b n) (fun a => by
    match a with
    | ⟨0, _⟩ => rfl
    | ⟨1, _⟩ => rfl)

/-- Putting the column back into a reduced row index. -/
theorem lift_row (h : S128x200x200.Reduces [2] S128x200) (b : Fin 128) (n : Fin 200) (k : Fin (S128x200x200.size 2)) :
    h.lift (ix2 b n) k = ix3 b n (⟨k.val, k.isLt⟩ : Fin 200) := by
  funext c; apply Fin.ext
  fin_cases c <;> rfl

/-- Putting the node back into a reduced (jet, channel) index. -/
theorem lift_node (h : S128x200x256.Reduces [1] S128x256) (b : Fin 128) (e : Fin 256) (k : Fin (S128x200x256.size 1)) :
    h.lift (ix2 b e) k = ix3 b (⟨k.val, k.isLt⟩ : Fin 200) e := by
  funext c; apply Fin.ext
  fin_cases c <;> rfl

/-- The row maximum: the fold of max from the word of −∞ over the row. -/
theorem rowmax_apply (l : FVec Ideal S128x200x200 .f32) (b : Fin 128) (n : Fin 200) :
    Host.reduce FloatOps.maximumf l (constant (F := Ideal) S_ .f32 0xFF800000#32) reducesTo_S128x200x200_S128x200_d2 h_S_ (ix2 b n)
      = (Finset.univ : Finset (Fin 200)).fold max negInf (fun m => l (ix3 b n m)) := by
  rw [Host.reduce_eq_fold_single FloatOps.maximumf l _ reducesTo_S128x200x200_S128x200_d2 (by decide) h_S_]
  have hf : (l ∘ (by decide : S128x200x200.Reduces [2] S128x200).lift (ix2 b n)) = fun m : Fin 200 => l (ix3 b n m) :=
    funext fun k => congrArg l (lift_row _ b n k)
  rw [hf]
  rfl

/-- The row sum: the sum over the row. -/
theorem rowsum_apply (p : FVec Ideal S128x200x200 .f32) (b : Fin 128) (n : Fin 200) :
    Host.reduceAdd p (constant (F := Ideal) S_ .f32 0x00000000#32) reducesTo_S128x200x200_S128x200_d2 h_S_ (ix2 b n)
      = ∑ m : Fin 200, p (ix3 b n m) := by
  show Ideal.hostReduceAdd reducesTo_S128x200x200_S128x200_d2 p (Ideal.ofBits .f32 0x00000000#32) (ix2 b n) = _
  rw [Ideal.hostReduceAdd_single reducesTo_S128x200x200_S128x200_d2 (by decide), Ideal.ofBits_zero_f32, zero_add]
  exact Finset.sum_congr rfl fun k _ => congrArg p (lift_row _ b n k)

/-- The sum over the nodes. -/
theorem nodesum_apply (y : FVec Ideal S128x200x256 .f32) (b : Fin 128) (e : Fin 256) :
    Host.reduceAdd y (constant (F := Ideal) S_ .f32 0x00000000#32) reducesTo_S128x200x256_S128x256_d1 h_S_ (ix2 b e)
      = ∑ n : Fin 200, y (ix3 b n e) := by
  show Ideal.hostReduceAdd reducesTo_S128x200x256_S128x256_d1 y (Ideal.ofBits .f32 0x00000000#32) (ix2 b e) = _
  rw [Ideal.hostReduceAdd_single reducesTo_S128x200x256_S128x256_d1 (by decide), Ideal.ofBits_zero_f32, zero_add]
  exact Finset.sum_congr rfl fun k _ => congrArg y (lift_node _ b e k)

/-- The concatenated operand on its upper 256 channels is the state. -/
theorem concat_left (x y : FVec Ideal S128x200x256 .f32) (b : Fin 128) (n : Fin 200) (d : Fin 256) :
    concatenate S128x200x512 2 [⟨S128x200x256, x⟩, ⟨S128x200x256, y⟩] concatenates_S128x200x256_S128x200x256_S128x200x512_d2
      (ix3 b n (Fin.castAdd 256 d : Fin 512)) = x (ix3 b n d) :=
  concatenate_pair_apply_left (t := S128x200x512) (s₁ := S128x200x256) (s₂ := S128x200x256) 2 x y
    concatenates_S128x200x256_S128x200x256_S128x200x512_d2 (ix3 b n (Fin.castAdd 256 d : Fin 512)) rfl (ix3 b n d) (fun a => by
    match a with
    | ⟨0, _⟩ => rfl
    | ⟨1, _⟩ => rfl
    | ⟨2, _⟩ => rfl)

/-- The concatenated operand on its lower 256 channels is the messages. -/
theorem concat_right (x y : FVec Ideal S128x200x256 .f32) (b : Fin 128) (n : Fin 200) (d : Fin 256) :
    concatenate S128x200x512 2 [⟨S128x200x256, x⟩, ⟨S128x200x256, y⟩] concatenates_S128x200x256_S128x200x256_S128x200x512_d2
      (ix3 b n (Fin.natAdd 256 d : Fin 512)) = y (ix3 b n d) :=
  concatenate_pair_apply_right (t := S128x200x512) (s₁ := S128x200x256) (s₂ := S128x200x256) 2 x y
    concatenates_S128x200x256_S128x200x256_S128x200x512_d2 (ix3 b n (Fin.natAdd 256 d : Fin 512)) rfl rfl (ix3 b n d) (fun a ha => by
    match a, ha with
    | ⟨0, _⟩, _ => rfl
    | ⟨1, _⟩, _ => rfl
    | ⟨2, _⟩, ha => exact absurd (Fin.ext rfl) ha) (by
    show d.val + 256 = 256 + d.val
    omega)

/-! ## The stages read at an index -/

/-- The host's tanh and exp read at an index. -/
theorem hostTanh_apply {s : Shape} (x : FVec Ideal s .f32) (i : s.Idx) : Host.tanh x i = Ideal.tanh (x i) := rfl
theorem hostExp_apply {s : Shape} (x : FVec Ideal s .f32) (i : s.Idx) : Host.exp x i = Ideal.exp (x i) := rfl

/-- A scalar constant broadcast over the logits reads the constant's word. -/
theorem scalar_apply (w : BitVec 32) (j : S128x200x200.Idx) :
    broadcastInDim S128x200x200 ![] bcast_S_S128x200x200 (constant (F := Ideal) S_ .f32 w) j = Ideal.ofBits .f32 w :=
  broadcastInDim_scalar_apply _ _ j

/-- A scalar constant broadcast over the rows reads the constant's word. -/
theorem scalar2_apply (w : BitVec 32) (j : S128x200.Idx) :
    broadcastInDim S128x200 ![] bcast_S_S128x200 (constant (F := Ideal) S_ .f32 w) j = Ideal.ofBits .f32 w :=
  broadcastInDim_scalar_apply _ _ j

/-- The embedding, jet by jet. -/
theorem embR_apply (a0 : FVec Ideal S128x200x8 .f32) (a1 : FVec Ideal S8x256 .f32) (a2 : FVec Ideal S256 .f32)
    (b : Fin 128) (n : Fin 200) (d : Fin 256) :
    embR a0 a1 a2 (ix3 b n d) = dense (jetOf a0 b) (fun f d => a1 (ix2 f d)) (fun d => a2 (ix1 d)) n d := by
  unfold embR
  rw [hostTanh_apply, addf_apply, dot8_apply, bias_apply]
  rfl

theorem embR_slab (a0 : FVec Ideal S128x200x8 .f32) (a1 : FVec Ideal S8x256 .f32) (a2 : FVec Ideal S256 .f32) (b : Fin 128) :
    (fun n d => embR a0 a1 a2 (ix3 b n d)) = dense (jetOf a0 b) (fun f d => a1 (ix2 f d)) (fun d => a2 (ix1 d)) :=
  funext fun n => funext fun d => embR_apply a0 a1 a2 b n d

/-- The scaled logits, jet by jet. -/
theorem logitR_apply (h : FVec Ideal S128x200x256 .f32) (b : Fin 128) (n m : Fin 200) :
    logitR h (ix3 b n m) = logit (fun n d => h (ix3 b n d)) n m := by
  unfold logitR
  rw [mulf_apply, dotL_apply, scalar_apply]
  rfl

theorem logitR_slab (h : FVec Ideal S128x200x256 .f32) (b : Fin 128) :
    (fun n m => logitR h (ix3 b n m)) = logit (fun n d => h (ix3 b n d)) :=
  funext fun n => funext fun m => logitR_apply h b n m

/-- The shifted exponentials, jet by jet: the outer maximum with −∞ is absorbed by the fold that starts from −∞. -/
theorem pexpR_apply (l : FVec Ideal S128x200x200 .f32) (b : Fin 128) (n m : Fin 200) :
    pexpR l (ix3 b n m) = pexp (fun n m => l (ix3 b n m)) n m := by
  unfold pexpR
  rw [hostExp_apply, subf_apply, row_apply, maximumf_apply, scalar2_apply, rowmax_apply]
  show Ideal.exp (l (ix3 b n m) - max negInf ((Finset.univ : Finset (Fin 200)).fold max negInf (fun m => l (ix3 b n m)))) = _
  rw [max_eq_right ((Finset.le_fold_max negInf).mpr (Or.inl le_rfl))]
  rfl

theorem pexpR_slab (l : FVec Ideal S128x200x200 .f32) (b : Fin 128) :
    (fun n m => pexpR l (ix3 b n m)) = pexp (fun n m => l (ix3 b n m)) :=
  funext fun n => funext fun m => pexpR_apply l b n m

/-- The row normalisation, jet by jet. -/
theorem normR_apply (p : FVec Ideal S128x200x200 .f32) (b : Fin 128) (n m : Fin 200) :
    normR p (ix3 b n m) = Ideal.div (p (ix3 b n m)) (rowSum (fun n m => p (ix3 b n m)) n) := by
  unfold normR
  rw [hostDivf_apply, row_apply, rowsum_apply]
  rfl

/-- The attention of a state, jet by jet. -/
theorem attR_apply (h : FVec Ideal S128x200x256 .f32) (b : Fin 128) (n m : Fin 200) :
    normR (pexpR (logitR h)) (ix3 b n m) = att (fun n d => h (ix3 b n d)) n m := by
  have e1 : (fun n m => pexpR (logitR h) (ix3 b n m)) = pexp (logit (fun n d => h (ix3 b n d))) :=
    (pexpR_slab (logitR h) b).trans (congrArg pexp (logitR_slab h b))
  have e2 : pexpR (logitR h) (ix3 b n m) = pexp (logit (fun n d => h (ix3 b n d))) n m := congrFun (congrFun e1 n) m
  exact (normR_apply (pexpR (logitR h)) b n m).trans (congrArg₂ Ideal.div e2 (congrArg (fun p => rowSum p n) e1))

/-- The messages of a state, jet by jet. -/
theorem msgR_apply (h : FVec Ideal S128x200x256 .f32) (b : Fin 128) (n : Fin 200) (d : Fin 256) :
    Host.dotGeneral dot_S128x200x200_S128x200x256_S128x200x256_2_1_1_2_0_0 none (normR (pexpR (logitR h))) h (ix3 b n d)
      = msg (fun n d => h (ix3 b n d)) n d := by
  rw [dotM_apply]
  exact Finset.sum_congr rfl fun m _ => congrArg (· * h (ix3 b m d)) (attR_apply h b n m)

/-- The product of a concatenated operand with the 512-row weight splits into the upper and the lower 256 rows. -/
theorem dot512cat_apply (x y : FVec Ideal S128x200x256 .f32) (W : FVec Ideal S512x256 .f32) (b : Fin 128) (n : Fin 200) (e : Fin 256) :
    Host.dotGeneral dot_S128x200x512_S512x256_S128x200x256_2_0_01_1_n_n none
        (concatenate S128x200x512 2 [⟨S128x200x256, x⟩, ⟨S128x200x256, y⟩] concatenates_S128x200x256_S128x200x256_S128x200x512_d2) W (ix3 b n e)
      = (∑ d : Fin 256, x (ix3 b n d) * W (ix2 (Fin.castAdd 256 d : Fin 512) e))
        + ∑ d : Fin 256, y (ix3 b n d) * W (ix2 (Fin.natAdd 256 d : Fin 512) e) := by
  rw [dot512_apply]
  refine (Fin.sum_univ_add (a := 256) (b := 256) (fun k : Fin 512 =>
    concatenate S128x200x512 2 [⟨S128x200x256, x⟩, ⟨S128x200x256, y⟩] concatenates_S128x200x256_S128x200x256_S128x200x512_d2 (ix3 b n k) * W (ix2 k e))).trans ?_
  refine congrArg₂ (· + ·) (Finset.sum_congr rfl fun d _ => ?_) (Finset.sum_congr rfl fun d _ => ?_)
  · exact congrArg (· * W (ix2 (Fin.castAdd 256 d : Fin 512) e)) (concat_left x y b n d)
  · exact congrArg (· * W (ix2 (Fin.natAdd 256 d : Fin 512) e)) (concat_right x y b n d)

/-- One round, jet by jet. -/
theorem updR_apply (h : FVec Ideal S128x200x256 .f32) (W : FVec Ideal S512x256 .f32) (bb : FVec Ideal S256 .f32)
    (b : Fin 128) (n : Fin 200) (e : Fin 256) :
    updR h W bb (ix3 b n e) = upd (fun n d => h (ix3 b n d)) (fun k e => W (ix2 k e)) (fun d => bb (ix1 d)) n e := by
  unfold updR
  rw [hostTanh_apply, addf_apply, dot512cat_apply, bias_apply]
  simp only [msgR_apply]
  rfl

theorem updR_slab (h : FVec Ideal S128x200x256 .f32) (W : FVec Ideal S512x256 .f32) (bb : FVec Ideal S256 .f32) (b : Fin 128) :
    (fun n e => updR h W bb (ix3 b n e)) = upd (fun n d => h (ix3 b n d)) (fun k e => W (ix2 k e)) (fun d => bb (ix1 d)) :=
  funext fun n => funext fun e => updR_apply h W bb b n e

/-- The first readout layer, jet by jet. -/
theorem fc1R_apply (h : FVec Ideal S128x200x256 .f32) (W : FVec Ideal S256x256 .f32) (bb : FVec Ideal S256 .f32)
    (b : Fin 128) (n : Fin 200) (e : Fin 256) :
    fc1R h W bb (ix3 b n e) = dense (fun n d => h (ix3 b n d)) (fun k e => W (ix2 k e)) (fun d => bb (ix1 d)) n e := by
  unfold fc1R
  rw [hostTanh_apply, addf_apply, dot256_apply, bias_apply]
  rfl

theorem fc1R_slab (h : FVec Ideal S128x200x256 .f32) (W : FVec Ideal S256x256 .f32) (bb : FVec Ideal S256 .f32) (b : Fin 128) :
    (fun n e => fc1R h W bb (ix3 b n e)) = dense (fun n d => h (ix3 b n d)) (fun k e => W (ix2 k e)) (fun d => bb (ix1 d)) :=
  funext fun n => funext fun e => fc1R_apply h W bb b n e

/-- The word of the node count is 200. -/
theorem nodes_eq : nodes = ((200 : ℕ) : EReal) := by
  have h : Ideal.ofBits .f32 0x43480000#32 = ((200 : ℝ) : EReal) := by
    simp [Ideal.ofBits, Ideal.ieee, -EReal.coe_mul]; norm_num
  rw [nodes, h, ← EReal.coe_coe_eq_natCast]
  norm_num

/-- The second readout layer summed over the nodes, jet by jet: the bias, added at each of the 200 nodes, leaves the sum as 200 times itself. -/
theorem sumR_apply (r : FVec Ideal S128x200x256 .f32) (W : FVec Ideal S256x256 .f32) (bb : FVec Ideal S256 .f32)
    (b : Fin 128) (e : Fin 256) :
    sumR r W bb (ix2 b e) = readout (fun n d => r (ix3 b n d)) (fun k e => W (ix2 k e)) (fun d => bb (ix1 d)) e := by
  unfold sumR
  rw [nodesum_apply]
  simp only [addf_apply, dot256_apply]
  rw [Finset.sum_add_distrib, Finset.sum_congr (s₁ := (Finset.univ : Finset (Fin 200))) rfl (fun n _ => bias_apply bb b n e),
    Finset.sum_const, Finset.card_univ, Fintype.card_fin, EReal.nsmul_eq_mul, ← nodes_eq]
  rfl

/-- The state after the embedding and two rounds, jet by jet. -/
theorem state2R_slab (a0 : FVec Ideal S128x200x8 .f32) (a1 : FVec Ideal S8x256 .f32) (a2 : FVec Ideal S256 .f32) (a3 : FVec Ideal S512x256 .f32) (a4 : FVec Ideal S256 .f32)
    (a5 : FVec Ideal S512x256 .f32) (a6 : FVec Ideal S256 .f32) (b : Fin 128) :
    (fun n d => state2R a0 a1 a2 a3 a4 a5 a6 (ix3 b n d))
      = upd (upd (dense (jetOf a0 b) (fun f d => a1 (ix2 f d)) (fun d => a2 (ix1 d))) (fun k e => a3 (ix2 k e)) (fun d => a4 (ix1 d)))
          (fun k e => a5 (ix2 k e)) (fun d => a6 (ix1 d)) := by
  unfold state2R
  exact (updR_slab (updR (embR a0 a1 a2) a3 a4) a5 a6 b).trans
    (congrArg (fun s => upd s (fun k e => a5 (ix2 k e)) (fun d => a6 (ix1 d)))
      ((updR_slab (embR a0 a1 a2) a3 a4 b).trans
        (congrArg (fun s => upd s (fun k e => a3 (ix2 k e)) (fun d => a4 (ix1 d))) (embR_slab a0 a1 a2 b))))

/-- At the ideal instance the first result is the network's readout, jet by jet. -/
theorem refOut_eq (a0 : FVec Ideal S128x200x8 .f32) (a1 : FVec Ideal S8x256 .f32) (a2 : FVec Ideal S256 .f32) (a3 : FVec Ideal S512x256 .f32) (a4 : FVec Ideal S256 .f32)
    (a5 : FVec Ideal S512x256 .f32) (a6 : FVec Ideal S256 .f32)
    (a7 : FVec Ideal S512x256 .f32) (a8 : FVec Ideal S256 .f32)
    (a9 : FVec Ideal S256x256 .f32) (a10 : FVec Ideal S256 .f32) (a11 : FVec Ideal S256x256 .f32) (a12 : FVec Ideal S256 .f32) :
    refOut a0 a1 a2 a3 a4 a5 a6 a7 a8 a9 a10 a11 a12 = Gout a0 (paramsOf a1 a2 a3 a4 a5 a6 a7 a8 a9 a10 a11 a12) := by
  funext i
  obtain ⟨b, e, rfl⟩ : ∃ (b : Fin 128) (e : Fin 256), i = ix2 b e := ⟨i 0, i 1, eq_ix2 i⟩
  unfold refOut
  have e1 : (fun n d => fc1R (updR (state2R a0 a1 a2 a3 a4 a5 a6) a7 a8) a9 a10 (ix3 b n d))
      = dense (upd (upd (upd (dense (jetOf a0 b) (fun f d => a1 (ix2 f d)) (fun d => a2 (ix1 d))) (fun k e => a3 (ix2 k e)) (fun d => a4 (ix1 d)))
          (fun k e => a5 (ix2 k e)) (fun d => a6 (ix1 d))) (fun k e => a7 (ix2 k e)) (fun d => a8 (ix1 d))) (fun k e => a9 (ix2 k e)) (fun d => a10 (ix1 d)) :=
    (fc1R_slab (updR (state2R a0 a1 a2 a3 a4 a5 a6) a7 a8) a9 a10 b).trans
      (congrArg (fun s => dense s (fun k e => a9 (ix2 k e)) (fun d => a10 (ix1 d)))
        ((updR_slab (state2R a0 a1 a2 a3 a4 a5 a6) a7 a8 b).trans
          (congrArg (fun s => upd s (fun k e => a7 (ix2 k e)) (fun d => a8 (ix1 d))) (state2R_slab a0 a1 a2 a3 a4 a5 a6 b))))
  exact (sumR_apply (fc1R (updR (state2R a0 a1 a2 a3 a4 a5 a6) a7 a8) a9 a10) a11 a12 b e).trans
    (congrArg (fun s => readout s (fun k e => a11 (ix2 k e)) (fun d => a12 (ix1 d)) e) e1)

/-- At the ideal instance the second result is the network's third-round attention, jet by jet. -/
theorem refAtt_eq (a0 : FVec Ideal S128x200x8 .f32) (a1 : FVec Ideal S8x256 .f32) (a2 : FVec Ideal S256 .f32) (a3 : FVec Ideal S512x256 .f32) (a4 : FVec Ideal S256 .f32)
    (a5 : FVec Ideal S512x256 .f32) (a6 : FVec Ideal S256 .f32)
    (a7 : FVec Ideal S512x256 .f32) (a8 : FVec Ideal S256 .f32)
    (a9 : FVec Ideal S256x256 .f32) (a10 : FVec Ideal S256 .f32) (a11 : FVec Ideal S256x256 .f32) (a12 : FVec Ideal S256 .f32) :
    refAtt a0 a1 a2 a3 a4 a5 a6 = Gatt a0 (paramsOf a1 a2 a3 a4 a5 a6 a7 a8 a9 a10 a11 a12) := by
  funext i
  obtain ⟨b, n, m, rfl⟩ : ∃ (b : Fin 128) (n m : Fin 200), i = ix3 b n m := ⟨i 0, i 1, i 2, eq_ix3 i⟩
  unfold refAtt
  exact (attR_apply (state2R a0 a1 a2 a3 a4 a5 a6) b n m).trans
    (congrArg (fun s => att s n m) (state2R_slab a0 a1 a2 a3 a4 a5 a6 b))

end Cert.ReferenceIdeal.Ref

end
-- ==== Proof.lean ====
/-
  The certificate's claims for the message-passing network kernel (128 jets of 200 nodes; embedding, three rounds of
  softmax-attention message passing, a summed two-layer readout), against its batched reference, at the ideal instance.

  Both idealized programs compute, for every jet b, the same two functions of that jet's 200 × 8 matrix and the twelve weight
  arrays: the readout row (Cert.Mpnn.outSpec) and the third round's attention matrix (Cert.Mpnn.attSpec). The kernel takes
  eight jets per grid point, runs one chain of vector operations on each jet's slab, and writes the eight results into its
  block; the sixteen points' blocks tile the two output arrays, and the host re-lays the [128, 1, 256] readouts as [128, 256].
  The reference runs the same stages on all jets at once. Two laws join the two sides, both valid for all extended reals:
  the product of the concatenated state and messages with the 512-row weight is the sum of the products with its upper and
  lower 256 rows, and the sum over the 200 nodes of (y + b₂) is the sum of y plus 200·b₂. The word-level kernel's and the
  idealized kernel's frames are the generated ones; the reference's frame is its run with the results dropped; the ideal
  pass rewrote nothing, so the preservation claim is trivial.
-/
import proofs.«174277_g85813446574462_cont_9to1c4b_288_11_alg».proof.Defs
import proofs.«174277_g85813446574462_cont_9to1c4b_288_11_alg».proof.Proof.Gen.Kernel
import proofs.«174277_g85813446574462_cont_9to1c4b_288_11_alg».proof.Proof.Gen.Kernel.Skeleton
import proofs.«174277_g85813446574462_cont_9to1c4b_288_11_alg».proof.Proof.Gen.Kernel.Launch
import proofs.«174277_g85813446574462_cont_9to1c4b_288_11_alg».proof.Proof.Gen.Kernel.Points
import proofs.«174277_g85813446574462_cont_9to1c4b_288_11_alg».proof.Proof.Gen.Kernel.Frame
import proofs.«174277_g85813446574462_cont_9to1c4b_288_11_alg».proof.Proof.Gen.KernelIdeal
import proofs.«174277_g85813446574462_cont_9to1c4b_288_11_alg».proof.Proof.Gen.KernelIdeal.Skeleton
import proofs.«174277_g85813446574462_cont_9to1c4b_288_11_alg».proof.Proof.Gen.KernelIdeal.Launch
import proofs.«174277_g85813446574462_cont_9to1c4b_288_11_alg».proof.Proof.Gen.KernelIdeal.Points
import proofs.«174277_g85813446574462_cont_9to1c4b_288_11_alg».proof.Proof.Gen.KernelIdeal.Frame
import proofs.«174277_g85813446574462_cont_9to1c4b_288_11_alg».proof.Proof.Gen.ReferenceIdeal
import proofs.«174277_g85813446574462_cont_9to1c4b_288_11_alg».proof.Proof.Gen.Pre_finite_inputs
import proofs.«174277_g85813446574462_cont_9to1c4b_288_11_alg».proof.Proof.KRun
import proofs.«174277_g85813446574462_cont_9to1c4b_288_11_alg».proof.Proof.RRun
import proofs.«174277_g85813446574462_cont_9to1c4b_288_11_alg».proof.Proof.RRead
import Idealize.ShloMosaic.Adequacy
import Idealize.ShloMosaic.Init

noncomputable section

namespace Cert.Proof.Claims

open Idealize.ShloMosaic Idealize.SL.Sem Cert.Mpnn

/-- The word-level kernel terminates without a fault and leaves its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote nothing. -/
theorem preserves : Cert.preserves_Kernel_KernelIdeal := trivial

/-- Both idealized programs end, from memories agreeing on the thirteen arguments, at the network's readouts and
    third-round attention matrices of the 128 jets: the kernel's run read block by block, the reference's stage by stage. -/
theorem algebraic : Cert.algebraic_KernelIdeal_ReferenceIdeal := by
  intro m ρ m' ρ' _ hagree
  refine ⟨fun c => Gout (Cert.KernelIdeal.KRun.jets m c) (Cert.KernelIdeal.KRun.wts m c),
    fun c => Gatt (Cert.KernelIdeal.KRun.jets m c) (Cert.KernelIdeal.KRun.wts m c), Cert.KernelIdeal.KRun.run m ρ, ?_⟩
  refine (θ_run Cert.ReferenceIdeal.defs _ _).mono (fun _ h c => ?_) (Cert.ReferenceIdeal.RefRun.run (F := Ideal) m' ρ')
  obtain ⟨h0, h1, hk⟩ := h c
  obtain ⟨a0, a1, a2, a3, a4, a5, a6, a7, a8, a9, a10, a11, a12⟩ := hagree c
  refine ⟨h0.trans ?_, h1.trans ?_, hk⟩
  · rw [Cert.ReferenceIdeal.Ref.refOut_eq, a0, a1, a2, a3, a4, a5, a6, a7, a8, a9, a10, a11, a12]
  · rw [Cert.ReferenceIdeal.Ref.refAtt_eq (a7 := m' ((c.tc : Thread Cert.ReferenceIdeal.nD Cert.ReferenceIdeal.τ).loc Cert.ReferenceIdeal.main_arg7)) (a8 := m' ((c.tc : Thread Cert.ReferenceIdeal.nD Cert.ReferenceIdeal.τ).loc Cert.ReferenceIdeal.main_arg8)) (a9 := m' ((c.tc : Thread Cert.ReferenceIdeal.nD Cert.ReferenceIdeal.τ).loc Cert.ReferenceIdeal.main_arg9)) (a10 := m' ((c.tc : Thread Cert.ReferenceIdeal.nD Cert.ReferenceIdeal.τ).loc Cert.ReferenceIdeal.main_arg10)) (a11 := m' ((c.tc : Thread Cert.ReferenceIdeal.nD Cert.ReferenceIdeal.τ).loc Cert.ReferenceIdeal.main_arg11)) (a12 := m' ((c.tc : Thread Cert.ReferenceIdeal.nD Cert.ReferenceIdeal.τ).loc Cert.ReferenceIdeal.main_arg12)),
      a0, a1, a2, a3, a4, a5, a6, a7, a8, a9, a10, a11, a12]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
